-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![1024, 512]⟩ ⟨2, ![2048, 1024]⟩ (Layout.meshBlock [2, 2] ![[0], [1]] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![1, 512]⟩ ⟨2, ![1, 1024]⟩ (Layout.meshBlock [2, 2] ![[], [1]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S1024x512 : Shape := ⟨2, ![1024, 512]⟩
abbrev S_ : Shape := ⟨0, ![]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel

variable [Facts]

def fn {F : FTy → Type} [FloatOps F] (main_arg0 : FVec F S1024x512 .f32) : IVec S_ 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  let main_c : IVec S_ 1 := constantI S_ 1 1#1
  let main_v3 : IVec S_ 1 := (fun x v => Host.reduce IntOp.andi x v reducesTo_S1024x512_S_d0_1 h_S_) main_v2 main_c
  main_v3
-- ==== Pre_finite_inputs_ReferenceIdeal.lean ====
abbrev S2048x1024 : Shape := ⟨2, ![2048, 1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel

variable [Facts]

def fn {F : FTy → Type} [FloatOps F] (main_arg0 : FVec F S2048x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  main_v3
-- ==== Kernel.lean ====
abbrev S1024x512 : Shape := ⟨2, ![1024, 512]⟩
abbrev S1x512 : Shape := ⟨2, ![1, 512]⟩
abbrev S_ : Shape := ⟨0, ![]⟩
abbrev S512 : Shape := ⟨1, ![512]⟩

abbrev nBuf : Space → Nat
  | .hbm => 2
  | .vmem => 4
  | .smem => 0
  | _ => 0

abbrev bufTy : (tb : Table) → Fin (tcTables nBuf tb) → BufTy
  | .hbm, ⟨0, _⟩ => ⟨S1024x512, .f32⟩
  | .hbm, ⟨1, _⟩ => ⟨S1x512, .f32⟩
  | .local _ .vmem, ⟨0, _⟩ => ⟨S1024x512, .f32⟩
  | .local _ .vmem, ⟨1, _⟩ => ⟨S1x512, .f32⟩
  | .local _ .vmem, ⟨2, _⟩ => ⟨S1x512, .f32⟩
  | .local _ .vmem, ⟨3, _⟩ => ⟨S1x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 4 → Bool
  | ⟨0, _⟩ => true
  | ⟨1, _⟩ => true
  | ⟨2, _⟩ => true
  | ⟨3, _⟩ => true
  | _ => false

abbrev sig : RefSig :=
  (ofTc nBuf bufTy 1 4 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_4 : BitVec 32 := 2#32
  let v8 : BitVec 32 := Scalar.muli v6 c2_i32_4
  let v9 : BitVec 32 := Scalar.addi c0_i32 v8
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_5 : BitVec 32 := 1#32
  let v10 : BitVec 32 := Scalar.muli v5 c1_i32_5
  let v11 : BitVec 32 := Scalar.addi v9 v10
  v11.toNat
def k0_dev2 (d0 : Dev nD) : Nat :=
  let c0_i32_11 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_10 : BitVec 32 := 2#32
  let v18 : BitVec 32 := Scalar.muli v6 c2_i32_10
  let v19 : BitVec 32 := Scalar.addi c0_i32_11 v18
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_12 : BitVec 32 := 1#32
  let v20 : BitVec 32 := Scalar.muli v5 c1_i32_12
  let v21 : BitVec 32 := Scalar.addi v19 v20
  v21.toNat
abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  reduces_S1024x512_S512 : S1024x512.Reduces [0] S512
  inb_S1x512_S1x512_0_0 : ∀ a, (![0, 0] : Fin 2 → Nat) a + S1x512.size a ≤ S1x512.size a
  h_S1x512 : 0 < S1x512.numel
  shapeCasts_S1x512_S512 : S1x512.ShapeCasts S512
  shapeCasts_S512_S1x512 : S512.ShapeCasts S1x512
  hcc0_scratch2 : 2 + S_.numel ≤ 4
  hcc0_scratch3 : 3 + S_.numel ≤ 4
  k0_dev1_lt : ∀ d0 : Dev nD, (k0_dev1 d0) < nD
  k0_dev2_lt : ∀ d0 : Dev nD, (k0_dev2 d0) < nD
  hstage0_0 : ∀ j, (stage0_0 j).IsWhole
  hstage0_1 : ∀ j, (stage0_1 j).IsWhole

variable [Facts₀]

abbrev cc0_scratch2 : DmaSems sig S_ := SemArray.consecutive 2 S_ hcc0_scratch2
abbrev cc0_scratch3 : DmaSems sig S_ := SemArray.consecutive 3 S_ hcc0_scratch3

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S2048x1024 : Shape := ⟨2, ![2048, 1024]⟩
abbrev S_ : Shape := ⟨0, ![]⟩
abbrev S1024 : Shape := ⟨1, ![1024]⟩
abbrev S1x1024 : Shape := ⟨2, ![1, 1024]⟩

abbrev nBuf : Space → Nat
  | .hbm => 4
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S_, .f32⟩
  | .hbm, ⟨2, _⟩ => ⟨S1024, .f32⟩
  | .hbm, ⟨3, _⟩ => ⟨S1x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  reducesTo_S2048x1024_S1024_d0 : S2048x1024.ReducesTo [0] S1024
  h_S_ : 0 < S_.numel
  bcast_S1024_S1x1024_1 : S1024.BroadcastsInDim S1x1024 (![1] : Fin 1 → Fin S1x1024.rank)

variable [Facts₀]

class Facts : Prop extends Facts₀ where

variable [Facts]
-- ==== Proof.Peer.lean ====
/-
  The exchange partner on the 2 × 2 mesh. Devices are numbered row-major, device `c` at mesh position
  (c / 2, c % 2); the partner of `c` is the device in the same column and the other row, (1 - c / 2, c % 2),
  which is `c + 2` modulo 4. Exchanging is an involution.
-/
import Mathlib.Data.Fin.Basic
import Mathlib.Tactic.FinCases

namespace Cert.Exchange

/-- The device in the same mesh column and the other mesh row. -/
def peer (c : Fin 4) : Fin 4 := ⟨(c.val + 2) % 4, Nat.mod_lt _ (by decide)⟩

theorem peer_peer (c : Fin 4) : peer (peer c) = c := by revert c; decide

theorem peer_ne (c : Fin 4) : peer c ≠ c := by revert c; decide

theorem peer_val (c : Fin 4) : (peer c).val = (c.val % 2 + 2) - 2 * (c.val / 2) := by revert c; decide

/-- The partner shares the column coordinate and has the other row coordinate. -/
theorem peer_col (c : Fin 4) : (peer c).val % 2 = c.val % 2 := by revert c; decide
theorem peer_row (c : Fin 4) : (peer c).val / 2 = 1 - c.val / 2 := by revert c; decide

/-- The exchange as a permutation of the devices. -/
def swap : Fin 4 ≃ Fin 4 := ⟨peer, peer, peer_peer, peer_peer⟩

end Cert.Exchange
-- ==== Proof.Protocol.lean ====
/-
  The exchange of column maxima between the two rows of a 2 × 2 mesh: the protocol, stated once for every device.

  Device `c` reduces its block of `x` to a row of column maxima in its send buffer, tells its partner
  `peer c` (same column, other row) that it is inside the kernel by one unit on the partner's barrier
  semaphore, waits for the partner's unit on its own, copies its send buffer into the partner's receive
  buffer, waits for the copy to leave and for the partner's copy to land, and stores the elementwise maximum
  of the two rows.

  Under the rounds discipline every cell has ONE round of ONE duty. A barrier cell's duty is paid by the
  partner's signal and hands over the partner's receive buffer (over some contents) together with the fact
  that the partner's receive cell is at round 0: what the copy into it needs. A send cell's duty is paid by
  the device's own copy once the source is read, and hands the send buffer back holding the column maxima.
  A receive cell's duty is paid by the partner's copy once it has landed, and hands over the receive buffer
  holding the PARTNER's column maxima. A device waits on its barrier cell (level 1) while it still owes the
  partner's receive cell (level 2): the levels rule out a cycle of waits.
-/
import proofs.«900563_g7700000000000564_dist_max_ax0_xy_m1024_n512_v7x_xy2x2_f32_1_alg».proof.KernelIdeal
import proofs.«900563_g7700000000000564_dist_max_ax0_xy_m1024_n512_v7x_xy2x2_f32_1_alg».proof.Proof.Gen.KernelIdeal
import proofs.«900563_g7700000000000564_dist_max_ax0_xy_m1024_n512_v7x_xy2x2_f32_1_alg».proof.Proof.Gen.KernelIdeal.Skeleton
import proofs.«900563_g7700000000000564_dist_max_ax0_xy_m1024_n512_v7x_xy2x2_f32_1_alg».proof.Proof.Gen.KernelIdeal.Launch
import proofs.«900563_g7700000000000564_dist_max_ax0_xy_m1024_n512_v7x_xy2x2_f32_1_alg».proof.Proof.Peer
import Idealize.ShloMosaic.Lib.Pipeline.Launch
import Idealize.ShloMosaic.Lib.Pipeline.Kit
import Idealize.ShloMosaic.Lib.Tactic

noncomputable section

namespace Cert.KernelIdealProof

open Cert.KernelIdeal Cert.KernelIdeal.Gen Cert.Exchange

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy beside the exchange's (one duty a round, named by `Unit`) -/

abbrev UB : Type := URounds (GSem nD τ sig) Unit
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## The partner, as the kernel computes it -/

/-- Both device chains of the body (the signal's and the copy's) name the partner. -/
theorem dev1_eq (c : Dev nD) : (⟨k0_dev1 c, k0_dev1_lt c⟩ : Dev nD) = peer c := Fin.ext ((k0_dev1_eq c).trans (peer_val c).symm)
theorem dev2_eq (c : Dev nD) : (⟨k0_dev2 c, k0_dev2_lt c⟩ : Dev nD) = peer c := Fin.ext ((k0_dev2_eq c).trans (peer_val c).symm)

/-! ## The memrefs and cells -/

abbrev xM : Memref sig .tc .vmem S1024x512 .f32 := Memref.whole cc0_stg0_0
abbrev oM : Memref sig .tc .vmem S1x512 .f32 := Memref.whole cc0_stg1_0
/-- The send buffer (the row of this device's column maxima) and the receive buffer (where the partner's lands). -/
abbrev sM : Memref sig .tc .vmem S1x512 .f32 := Memref.whole cc0_scratch0
abbrev rM : Memref sig .tc .vmem S1x512 .f32 := Memref.whole cc0_scratch1

/-- The barrier semaphore of collective id 0 (not scoped to the launch); the copy's send and receive semaphores. -/
abbrev barS : Sem sig := (SemArray.scalar (sig.barrier 0 rfl) : Sems sig S_).sem
abbrev sendS : DmaSems sig S_ := cc0_scratch2
abbrev recvS : DmaSems sig S_ := cc0_scratch3

abbrev barCell (c : Dev nD) : GSem nD τ sig := ((c : Thread nD τ), .reg barS)
abbrev sendCell (c : Dev nD) : GSem nD τ sig := ((c : Thread nD τ), .dma sendS.sem)
abbrev recvCell (c : Dev nD) : GSem nD τ sig := ((c : Thread nD τ), .dma recvS.sem)

/-- The kernel's own (scoped) semaphores: send, receive; -/
abbrev osem : Fin 2 → SemLoc sig := fun | 0 => .dma sendS.sem | 1 => .dma recvS.sem
/-- all three of the exchange's: barrier, send, receive. -/
abbrev csem : Fin 3 → SemLoc sig := fun | 0 => .reg barS | 1 => .dma sendS.sem | 2 => .dma recvS.sem
abbrev kcell (ck : Dev nD × Fin 3) : GSem nD τ sig := ((ck.1 : Thread nD τ), csem ck.2)

/-- The units a copy of one row credits. -/
abbrev N : ℕ := (rM : Memref sig .tc .vmem S1x512 .f32).view.dmaCredit
theorem N_pos : 0 < N := View.dmaCredit_pos _ (by decide)

/-! ## Contents -/

/-- Device `c`'s block of `x`, as its input staging buffer holds it. -/
def xstg (c : Dev nD) : (cc0_stg0_0 : Ref sig .tc).ty.Contents (Elt F) :=
  (win0_0.blk (0 : Fin 1)).view.read (Elt F) (m ((c : Thread nD τ).loc main_arg0))

/-- The row of column maxima of device `c`'s block: what its send buffer holds after the first store. -/
def sendVal (c : Dev nD) : (cc0_scratch0 : Ref sig .tc).ty.Contents (Elt F) := k0_pay2 (xstg m c)

/-- What lands in device `c`'s receive buffer: the partner's row. -/
def landed (c : Dev nD) : Buf (Elt F) ((rM : Memref sig .tc .vmem S1x512 .f32).view.loc (c : Thread nD τ)) := sendVal m (peer c)

/-- The result row: the elementwise maximum of the device's own row and the partner's. -/
def outAt (c : Dev nD) : (cc0_stg1_0 : Ref sig .tc).ty.Contents (Elt F) := k0_pay1 (k0_pay3 (sendVal m c)) (landed m c)

/-- A whole send buffer written over a whole receive buffer is the send buffer's contents. -/
theorem landed_eq (c : Dev nD) (fd : Buf (Elt F) ((rM : Memref sig .tc .vmem S1x512 .f32).view.loc (c : Thread nD τ))) (fs : (cc0_scratch0 : Ref sig .tc).ty.Contents (Elt F)) :
    (rM : Memref sig .tc .vmem S1x512 .f32).view.write (Elt F) fd ((sM : Memref sig .tc .vmem S1x512 .f32).view.read (Elt F) fs) Finset.univ = fs := by
  show (View.whole cc0_scratch1).write (Elt F) fd ((View.whole cc0_scratch0).read (Elt F) fs) Finset.univ = fs
  rw [View.read_whole]
  exact View.write_whole_univ _ _ _

def rPts (c : Dev nD) (f : Buf (Elt F) ((rM : Memref sig .tc .vmem S1x512 .f32).view.loc (c : Thread nD τ))) : sProp 𝕄 :=
  (rM : Memref sig .tc .vmem S1x512 .f32).view.loc (c : Thread nD τ) ↦[(rM : Memref sig .tc .vmem S1x512 .f32).view.set]{fullShare} f
def sPts (c : Dev nD) (f : Buf (Elt F) ((sM : Memref sig .tc .vmem S1x512 .f32).view.loc (c : Thread nD τ))) : sProp 𝕄 :=
  (sM : Memref sig .tc .vmem S1x512 .f32).view.loc (c : Thread nD τ) ↦[(sM : Memref sig .tc .vmem S1x512 .f32).view.set]{fullShare} f

instance rPts_storable (c : Dev nD) (f) : BI.Storable (upEmb : UEmb _ 𝕄) (rPts (F := F) c f) := by unfold rPts; infer_instance
instance sPts_storable (c : Dev nD) (f) : BI.Storable (upEmb : UEmb _ 𝕄) (sPts (F := F) c f) := by unfold sPts; infer_instance

theorem r_set : (rM : Memref sig .tc .vmem S1x512 .f32).view.set = Finset.univ := View.set_whole _
theorem s_set : (sM : Memref sig .tc .vmem S1x512 .f32).view.set = Finset.univ := View.set_whole _
theorem rPts_eq (c : Dev nD) (f : Buf (Elt F) ((c : Thread nD τ).loc cc0_scratch1)) :
    rPts c f = (((c : Thread nD τ).loc cc0_scratch1) ↦{fullShare} f : sProp 𝕄) := by unfold rPts; rw [r_set]
theorem sPts_eq (c : Dev nD) (f : Buf (Elt F) ((c : Thread nD τ).loc cc0_scratch0)) :
    sPts c f = (((c : Thread nD τ).loc cc0_scratch0) ↦{fullShare} f : sProp 𝕄) := by unfold sPts; rw [s_set]

/-! ## The schedule -/

/-- What the partner's signal hands `c`: the partner's receive buffer and that the partner's receive cell is at round 0. -/
def barPay (c : Dev nD) : sProp 𝕄 := iprop((∃ f, rPts (peer c) f) ∗ reached ER (recvCell (peer c)) 0)
/-- What the partner's copy hands `c` once landed: `c`'s receive buffer holding the partner's row. -/
def recvPay (c : Dev nD) : sProp 𝕄 := rPts c (landed m c)
/-- What `c`'s own copy hands back once its source is read: the send buffer, still holding `c`'s row. -/
def sendPay (c : Dev nD) : sProp 𝕄 := sPts c (sendVal m c)

abbrev IsBar (g : GSem nD τ sig) : Prop := g.1.2 = .tc ∧ g.2 = .reg barS
abbrev IsXfer (g : GSem nD τ sig) : Prop := g.1.2 = .tc ∧ (g.2 = .dma sendS.sem ∨ g.2 = .dma recvS.sem)

/-- One round, round 0, one duty on each of a TensorCore's three cells: one unit on the barrier cell, the row's credit
    on the send and receive cells. -/
def xchRd : Rounds.Schedule (GSem nD τ sig) Unit 𝕄 where
  duties g r := if r = 0 ∧ (IsBar g ∨ IsXfer g) then {()} else ∅
  unitless _ := False
  amount g _ _ := if g.2 = .reg barS then 1 else N
  payload g _ _ :=
    if g.2 = .reg barS then barPay g.1.1
    else if g.2 = .dma recvS.sem then recvPay m g.1.1
    else if g.2 = .dma sendS.sem then sendPay m g.1.1
    else iprop(emp)
  amount_pos g _ _ _ := by
    by_cases h : g.2 = .reg barS
    · rw [if_pos h]; exact Nat.one_pos
    · rw [if_neg h]; exact N_pos

instance xchRd_payload_storable (g : GSem nD τ sig) (r : ℕ) (d : Unit) :
    BI.Storable (upEmb : UEmb _ 𝕄) ((xchRd (F := F) m).payload g r d) := by
  show BI.Storable upEmb (if g.2 = .reg barS then barPay g.1.1 else if g.2 = .dma recvS.sem then recvPay m g.1.1
    else if g.2 = .dma sendS.sem then sendPay m g.1.1 else iprop(emp))
  unfold barPay recvPay sendPay
  (repeat' split) <;> infer_instance

section Sched
variable (c : Dev nD)

theorem send_ne_bar : (SemLoc.dma sendS.sem : SemLoc sig) ≠ .reg barS := fun h => by cases h
theorem recv_ne_bar : (SemLoc.dma recvS.sem : SemLoc sig) ≠ .reg barS := fun h => by cases h
theorem send_ne_recv : (SemLoc.dma sendS.sem : SemLoc sig) ≠ .dma recvS.sem := by decide
theorem recv_ne_send : (SemLoc.dma recvS.sem : SemLoc sig) ≠ .dma sendS.sem := by decide

theorem duties_bar : (xchRd (F := F) m).duties (barCell c) 0 = {()} := by dsimp only [xchRd]; exact if_pos ⟨rfl, .inl ⟨rfl, rfl⟩⟩
theorem duties_send : (xchRd (F := F) m).duties (sendCell c) 0 = {()} := by dsimp only [xchRd]; exact if_pos ⟨rfl, .inr ⟨rfl, .inl rfl⟩⟩
theorem duties_recv : (xchRd (F := F) m).duties (recvCell c) 0 = {()} := by dsimp only [xchRd]; exact if_pos ⟨rfl, .inr ⟨rfl, .inr rfl⟩⟩
theorem duties_later (g : GSem nD τ sig) : ∀ r, 1 ≤ r → (xchRd (F := F) m).duties g r = ∅ :=
  fun r hr => by dsimp only [xchRd]; rw [if_neg fun h => by omega]

theorem amount_bar (d : Unit) : (xchRd (F := F) m).amount (barCell c) 0 d = 1 := by dsimp only [xchRd]; exact if_pos rfl
theorem amount_send (d : Unit) : (xchRd (F := F) m).amount (sendCell c) 0 d = N := by dsimp only [xchRd]; exact if_neg send_ne_bar
theorem amount_recv (d : Unit) : (xchRd (F := F) m).amount (recvCell c) 0 d = N := by dsimp only [xchRd]; exact if_neg recv_ne_bar

theorem expect_bar : (xchRd (F := F) m).expect (barCell c) 0 = 1 := by
  unfold Schedule.expect Schedule.amountOf; rw [duties_bar, Finset.sum_singleton, amount_bar]
theorem expect_send : (xchRd (F := F) m).expect (sendCell c) 0 = N := by
  unfold Schedule.expect Schedule.amountOf; rw [duties_send, Finset.sum_singleton, amount_send]
theorem expect_recv : (xchRd (F := F) m).expect (recvCell c) 0 = N := by
  unfold Schedule.expect Schedule.amountOf; rw [duties_recv, Finset.sum_singleton, amount_recv]

theorem payload_bar (d : Unit) : (xchRd (F := F) m).payload (barCell c) 0 d = barPay c := by dsimp only [xchRd]; rw [if_pos rfl]
theorem payload_send (d : Unit) : (xchRd (F := F) m).payload (sendCell c) 0 d = sendPay m c := by
  dsimp only [xchRd]; rw [if_neg send_ne_bar, if_neg send_ne_recv, if_pos rfl]
theorem payload_recv (d : Unit) : (xchRd (F := F) m).payload (recvCell c) 0 d = recvPay m c := by
  dsimp only [xchRd]; rw [if_neg recv_ne_bar, if_pos rfl]

/-- The whole of a cell's round, no duty taken yet: its one payload. -/
theorem rest_bar : bigSep ((xchRd (F := F) m).duties (barCell c) 0 \ ∅) (fun d => (xchRd (F := F) m).payload (barCell c) 0 d) = barPay c := by
  rw [Finset.sdiff_empty, duties_bar, bigSep_singleton, payload_bar]
theorem rest_send : bigSep ((xchRd (F := F) m).duties (sendCell c) 0 \ ∅) (fun d => (xchRd (F := F) m).payload (sendCell c) 0 d) = sendPay m c := by
  rw [Finset.sdiff_empty, duties_send, bigSep_singleton, payload_send]
theorem rest_recv : bigSep ((xchRd (F := F) m).duties (recvCell c) 0 \ ∅) (fun d => (xchRd (F := F) m).payload (recvCell c) 0 d) = recvPay m c := by
  rw [Finset.sdiff_empty, duties_recv, bigSep_singleton, payload_recv]

end Sched

/-! ## What each device owes at launch; the levels -/

/-- Device `c` owes its partner's receive cell the row's credit and its partner's barrier cell one unit — summed so
    that the signal, which comes first, peels the last summand. -/
def O₁ (c : Dev nD) : CellTallies nD τ sig Unit := tallyAt (recvCell (peer c)) () N
def O₀ (c : Dev nD) : CellTallies nD τ sig Unit := O₁ c + tallyAt (barCell (peer c)) () 1

def L (g : GSem nD τ sig) : Finset Unit := if g.1.2 = .tc then {()} else ∅
/-- Barrier cells at 1, receive cells at 2, everything else (staging, send) at 0. -/
def lv (g : GSem nD τ sig) (_ : Unit) : ℕ := if g.2 = .reg barS then 1 else if g.2 = .dma recvS.sem then 2 else 0

theorem L_of_ne (g : GSem nD τ sig) (h : g.1.2 ≠ .tc) : L g = ∅ := if_neg h
theorem L_tc (c : Dev nD) (sm : SemLoc sig) : L ((c : Thread nD τ), sm) = {()} := if_pos rfl

theorem O₀_pos {c : Dev nD} {g : GSem nD τ sig} {u : Unit} (h : 0 < O₀ c g u) :
    g = recvCell (peer c) ∨ g = barCell (peer c) := by
  unfold O₀ O₁ at h
  rw [Pi.add_apply, Finsupp.add_apply, tallyAt_apply, tallyAt_apply] at h
  by_contra hn
  rw [not_or] at hn
  rw [if_neg (fun h' => hn.1 h'.1), if_neg (fun h' => hn.2 h'.1)] at h
  exact Nat.lt_irrefl 0 h

/-- A wait on a cell that is neither a barrier nor a receive cell (level 0), owing the launch debt or nothing. -/
theorem mayWait_stage (c : Dev nD) (q : DmaSem sig) (hq : SemLoc.dma q ≠ .dma recvS.sem) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with rfl | rfl <;> exact Finset.mem_singleton_self _)
      (fun p hp => by rw [Finset.mem_singleton.mp hp]; dsimp only [lv]; rw [if_neg (fun h => by cases h), if_neg hq])
      (fun g u hg => by
        rcases O₀_pos hg with rfl | rfl
        · dsimp only [lv]; rw [if_neg recv_ne_bar, if_pos rfl]; decide
        · dsimp only [lv]; rw [if_pos rfl]; decide)
  · rw [MayWait_zero]; iintro -; iempintro

/-- At its barrier wait a device owes its partner's receive credit only: a receive cell, above its barrier cell. -/
theorem mayWait_bar (c : Dev nD) :
    (levAts L lv : sProp 𝕄) ⊢ MayWait (c : Thread nD τ) (.reg barS) () (tallyAt (recvCell (peer c)) () N) :=
  MayOwe.of_cut (L := L) (lev := lv) 1 (fun p hp => by rw [Finset.mem_singleton.mp hp, L_tc]; exact Finset.mem_singleton_self _)
    (fun g u hg => by
      rw [tallyAt_apply] at hg
      by_cases h : g = recvCell (peer c) ∧ u = ()
      · rw [h.1, L_tc]; exact Finset.mem_singleton_self _
      · rw [if_neg h] at hg; exact absurd hg (Nat.lt_irrefl 0))
    (fun p hp => by rw [Finset.mem_singleton.mp hp]; dsimp only [lv]; rw [if_pos rfl])
    (fun g u hg => by
      rw [tallyAt_apply] at hg
      by_cases h : g = recvCell (peer c) ∧ u = ()
      · rw [h.1]; dsimp only [lv]; rw [if_neg recv_ne_bar, if_pos rfl]; decide
      · rw [if_neg h] at hg; exact absurd hg (Nat.lt_irrefl 0))

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The cells' invariants device `c`'s body opens, under the names `K` the launch allocated them at: its own three, its
    partner's barrier cell (its signal) and its partner's receive cell (its copy). -/
def invs (K : Dev nD × Fin 3 → ℕ) (c : Dev nD) : sProp 𝕄 :=
  iprop(cellInv ER (xchRd m) (K (c, 0)) (barCell c) ∗ cellInv ER (xchRd m) (K (c, 1)) (sendCell c) ∗ cellInv ER (xchRd m) (K (c, 2)) (recvCell c)
    ∗ cellInv ER (xchRd m) (K (peer c, 0)) (barCell (peer c)) ∗ cellInv ER (xchRd m) (K (peer c, 2)) (recvCell (peer c)))

instance invs_persistent (K : Dev nD × Fin 3 → ℕ) (c : Dev nD) : BI.Persistent (invs m K c) := by unfold invs; infer_instance

/-- The exchange's ghost state device `c` starts from: the invariants; its positions at round 0 of its three cells; round 0
    reached on the cells it pays and on its own send and receive cells; the three duty tokens it pays with — its partner's
    barrier duty, its partner's receive duty, its own send duty. -/
def ghost (K : Dev nD × Fin 3 → ℕ) (c : Dev nD) : sProp 𝕄 :=
  iprop(invs m K c
    ∗ atPos ER (barCell c) 0 ∅ 0 ∗ atPos ER (sendCell c) 0 ∅ 0 ∗ atPos ER (recvCell c) 0 ∅ 0
    ∗ reached ER (barCell (peer c)) 0 ∗ reached ER (recvCell (peer c)) 0 ∗ reached ER (sendCell c) 0 ∗ reached ER (recvCell c) 0
    ∗ dutyTok ER (barCell (peer c)) 0 () ∗ dutyTok ER (recvCell (peer c)) 0 () ∗ dutyTok ER (sendCell c) 0 ())

/-- What device `c`'s body starts from: that at some names, its two credit tokens (its barrier's unit, its receive cell's
    credit) and the level facts. -/
def start (c : Dev nD) : sProp 𝕄 :=
  iprop((∃ K, ghost m K c) ∗ cred (tallyAt (barCell c) () 1) ∗ cred (tallyAt (recvCell c) () N) ∗ levAts L lv)

def Φ₀ (c : Dev nD) : sProp 𝕄 := iprop(start m c ∗ (∃ f, sPts c f) ∗ (∃ f, rPts c f))
/-- After the point: the send buffer holding the device's row, the receive buffer holding the partner's, the two own cells
    at zero, closed (the barrier cell is not the launch's: nothing to hand back). -/
def Φ₁ (c : Dev nD) : sProp 𝕄 := iprop(sPts c (sendVal m c) ∗ rPts c (landed m c) ∗ semVal (sendCell c) 0 ∗ semVal (recvCell c) 0)

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

end Cert.KernelIdealProof

end
-- ==== Proof.Body.lean ====
/-
  One device's body, stepped once at a symbolic device `c`.

  From the device's share of the exchange's ghost state, its launch credit, its two scratch rows and the two
  staging buffers, the body signals the partner, fills the send row with the column maxima of the block,
  waits for the partner's signal (which brings the partner's receive row), copies the send row into it,
  waits for the copy to leave (the send row comes back) and for the partner's copy to land (the receive row
  comes back holding the partner's column maxima), and stores the elementwise maximum in the output staging
  buffer. Afterwards the device owes nothing and its two own cells are closed at zero.
-/
import proofs.«900563_g7700000000000564_dist_max_ax0_xy_m1024_n512_v7x_xy2x2_f32_1_alg».proof.Proof.Protocol

set_option maxRecDepth 16384

noncomputable section

namespace Cert.KernelIdealProof

open Cert.KernelIdeal Cert.KernelIdeal.Gen Cert.Exchange

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The schedule's tables with each payload spelt as the buffer it hands over -/

theorem payload_bar_pts (c : Dev nD) (d : Unit) :
    (xchRd (F := F) m).payload (barCell c) 0 d
      = iprop((∃ f, ((rM : Memref sig .tc .vmem S1x512 .f32).view.loc (peer c : Thread nD τ) ↦[(rM : Memref sig .tc .vmem S1x512 .f32).view.set]{fullShare} f : sProp 𝕄))
          ∗ reached ER (recvCell (peer c)) 0) := by
  rw [payload_bar]; rfl
theorem payload_send_pts (c : Dev nD) (d : Unit) :
    (xchRd (F := F) m).payload (sendCell c) 0 d
      = ((sM : Memref sig .tc .vmem S1x512 .f32).view.loc (c : Thread nD τ) ↦[(sM : Memref sig .tc .vmem S1x512 .f32).view.set]{fullShare} sendVal m c : sProp 𝕄) := by
  rw [payload_send]; rfl
theorem payload_recv_pts (c : Dev nD) (d : Unit) :
    (xchRd (F := F) m).payload (recvCell c) 0 d
      = ((rM : Memref sig .tc .vmem S1x512 .f32).view.loc (c : Thread nD τ) ↦[(rM : Memref sig .tc .vmem S1x512 .f32).view.set]{fullShare} landed m c : sProp 𝕄) := by
  rw [payload_recv]; rfl
/-- The partner's receive duty hands the partner THIS device's row: the partner's partner is the device itself. -/
theorem payload_recv_peer (c : Dev nD) (d : Unit) :
    (xchRd (F := F) m).payload (recvCell (peer c)) 0 d
      = ((rM : Memref sig .tc .vmem S1x512 .f32).view.loc (peer c : Thread nD τ) ↦[(rM : Memref sig .tc .vmem S1x512 .f32).view.set]{fullShare} sendVal m c : sProp 𝕄) := by
  rw [payload_recv]; unfold recvPay rPts landed; rw [peer_peer]

/-- The partner's barrier duty is paid by THIS device: it hands the partner this device's receive row and that this
    device's receive cell is at round 0. -/
theorem payload_bar_peer (c : Dev nD) (d : Unit) :
    (xchRd (F := F) m).payload (barCell (peer c)) 0 d
      = iprop((∃ f, ((rM : Memref sig .tc .vmem S1x512 .f32).view.loc (c : Thread nD τ) ↦[(rM : Memref sig .tc .vmem S1x512 .f32).view.set]{fullShare} f : sProp 𝕄))
          ∗ reached ER (recvCell c) 0) := by
  rw [payload_bar]; unfold barPay rPts; rw [peer_peer]

attribute [local sl_rounds] duties_bar duties_send duties_recv amount_bar amount_send amount_recv expect_bar expect_send expect_recv
  payload_bar_pts payload_send_pts payload_recv_pts
attribute [local sl_rounds high] payload_bar_peer payload_recv_peer
attribute [local sl_canon] dev1_eq dev2_eq

/-! ## The body -/

section Body

variable (K : Dev nD × Fin 3 → ℕ)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- The body reads and writes every buffer through its whole rectangle (offsets zero, the buffer's extents):
    such a read is the contents and such a write replaces them. -/
abbrev rX : Rect S1024x512 := Rect.unit (s := S1024x512) ![0, 0] S1024x512.size inb_S1024x512_S1024x512_0_0
abbrev rR : Rect S1x512 := Rect.unit (s := S1x512) ![0, 0] S1x512.size inb_S1x512_S1x512_0_0
theorem hz : (![0, 0] : Fin 2 → Nat) = fun _ => 0 := funext fun a => by fin_cases a <;> rfl
theorem read_x (f : (cc0_stg0_0 : Ref sig .tc).ty.Contents (Elt F)) : (xM : Memref sig .tc .vmem S1024x512 .f32).view.readAt (Elt F) rX.toLoadRect f = f :=
  Memref.readAt_unit_zero (Elt F) cc0_stg0_0 hz _ f
theorem read_s (f : (cc0_scratch0 : Ref sig .tc).ty.Contents (Elt F)) : (sM : Memref sig .tc .vmem S1x512 .f32).view.readAt (Elt F) rR.toLoadRect f = f :=
  Memref.readAt_unit_zero (Elt F) cc0_scratch0 hz _ f
theorem read_r (f : (cc0_scratch1 : Ref sig .tc).ty.Contents (Elt F)) : (rM : Memref sig .tc .vmem S1x512 .f32).view.readAt (Elt F) rR.toLoadRect f = f :=
  Memref.readAt_unit_zero (Elt F) cc0_scratch1 hz _ f
theorem read_o (f : (cc0_stg1_0 : Ref sig .tc).ty.Contents (Elt F)) : (oM : Memref sig .tc .vmem S1x512 .f32).view.readAt (Elt F) rR.toLoadRect f = f :=
  Memref.readAt_unit_zero (Elt F) cc0_stg1_0 hz _ f
theorem write_s (f w : (cc0_scratch0 : Ref sig .tc).ty.Contents (Elt F)) :
    ((sM : Memref sig .tc .vmem S1x512 .f32).access rR : View sig .tc _ _ _).write (Elt F) f w Finset.univ = w :=
  Memref.write_access_unit_zero_univ (Elt F) cc0_scratch0 hz _ f w
theorem write_o (f w : (cc0_stg1_0 : Ref sig .tc).ty.Contents (Elt F)) :
    ((oM : Memref sig .tc .vmem S1x512 .f32).access rR : View sig .tc _ _ _).write (Elt F) f w Finset.univ = w :=
  Memref.write_access_unit_zero_univ (Elt F) cc0_stg1_0 hz _ f w

/-- One whole-rectangle store into a row leaves the stored vector. -/
theorem writes_s (f w : (cc0_scratch0 : Ref sig .tc).ty.Contents (Elt F)) :
    (sM : Memref sig .tc .vmem S1x512 .f32).view.writes (Elt F) f [⟨rR, w⟩] = w :=
  (View.writes_singleton _ _ _ _).trans (write_s f w)
theorem writes_o (f w : (cc0_stg1_0 : Ref sig .tc).ty.Contents (Elt F)) :
    (oM : Memref sig .tc .vmem S1x512 .f32).view.writes (Elt F) f [⟨rR, w⟩] = w :=
  (View.writes_singleton _ _ _ _).trans (write_o f w)

/-- A whole staging buffer held through its memref's view. -/
theorem x_pts_eq (c : Dev nD) (f : Buf (Elt F) ((c : Thread nD τ).loc cc0_stg0_0)) :
    (((c : Thread nD τ).loc cc0_stg0_0) ↦{fullShare} f : sProp 𝕄)
      = ((xM : Memref sig .tc .vmem S1024x512 .f32).view.loc (c : Thread nD τ) ↦[(xM : Memref sig .tc .vmem S1024x512 .f32).view.set]{fullShare} f) := by
  rw [View.set_whole]
theorem o_pts_eq (c : Dev nD) (f : Buf (Elt F) ((c : Thread nD τ).loc cc0_stg1_0)) :
    (((c : Thread nD τ).loc cc0_stg1_0) ↦{fullShare} f : sProp 𝕄)
      = ((oM : Memref sig .tc .vmem S1x512 .f32).view.loc (c : Thread nD τ) ↦[(oM : Memref sig .tc .vmem S1x512 .f32).view.set]{fullShare} f) := by
  rw [View.set_whole]

/-- After its first store the send row holds the column maxima of the device's block. -/
theorem s_restate (c : Dev nD) (f : (cc0_scratch0 : Ref sig .tc).ty.Contents (Elt F)) :
    ((sM : Memref sig .tc .vmem S1x512 .f32).view.loc (c : Thread nD τ) ↦[(sM : Memref sig .tc .vmem S1x512 .f32).view.set]{fullShare}
        (sM : Memref sig .tc .vmem S1x512 .f32).view.writes (Elt F) f [⟨rR, k0_pay2 (xstg m c)⟩] : sProp 𝕄)
      = ((sM : Memref sig .tc .vmem S1x512 .f32).view.loc (c : Thread nD τ) ↦[(sM : Memref sig .tc .vmem S1x512 .f32).view.set]{fullShare} sendVal m c) := by
  rw [writes_s]; rfl

/-- After the last store the output staging buffer holds the result row. -/
theorem o_restate (c : Dev nD) (g : (cc0_stg1_0 : Ref sig .tc).ty.Contents (Elt F)) :
    ((oM : Memref sig .tc .vmem S1x512 .f32).view.loc (c : Thread nD τ) ↦[(oM : Memref sig .tc .vmem S1x512 .f32).view.set]{fullShare}
        (oM : Memref sig .tc .vmem S1x512 .f32).view.writes (Elt F) g [⟨rR, k0_pay1 (k0_pay3 (sendVal m c)) (landed m c)⟩] : sProp 𝕄)
      = (((c : Thread nD τ).loc cc0_stg1_0) ↦{fullShare} outAt m c) := by
  rw [writes_o, o_pts_eq c (outAt m c)]; rfl

/-- What the body starts from on device `c`. -/
def bodyPre (c : Dev nD) : sProp 𝕄 :=
  iprop((ghost m K c ∗ cred (tallyAt (barCell c) () 1) ∗ cred (tallyAt (recvCell c) () N) ∗ levAts L lv ∗ (∃ f, sPts c f) ∗ (∃ f, rPts c f))
    ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

/-- What it ends in. -/
def bodyPost (c : Dev nD) : sProp 𝕄 :=
  iprop(Φ₁ m c ∗ (dats m 0 c).owesAt () t₀.succ ∗ stg c cc0_stg0_0 (xstg m c) ∗ stg c cc0_stg1_0 (outAt m c))

set_option maxHeartbeats 1000000 in
theorem sound_body (c : Dev nD) (Kt : PUnit → sProp 𝕄) :
    iprop(bodyPre m K c ∗ (bodyPost m c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _) cc0_scratch2 cc0_scratch3) Kt := by
  simp only [cc0_body_eq_skeleton]; unfold cc0_body_skel
  simp only [k0_part1_eq_skeleton]; unfold k0_part1_skel
  simp only [dev1_eq, dev2_eq]
  unfold bodyPre ghost invs
  iintro ⟨⟨⟨⟨⟨#HIbar, #HIsnd, #HIrcv, #HIbarP, #HIrcvP⟩, HatB, HatS, HatV, #HrBP, #HrVP, #HrS, #HrV, HtBP, HtVP, HtS⟩, HcB, HcV, #Hlev, ⟨%fs0, Hs⟩, ⟨%fr0, Hr⟩⟩,
    Ho, ⟨%d0, %g0, %hg0, Hx⟩, ⟨%d1, %g1, %hg1, Hout⟩⟩, Hk⟩
  have hx : g0 = xstg m c := by rw [hg0]; unfold Dat.before; rw [if_pos (fetch_0 t₀)]; rfl
  subst hx
  unfold Dat.owesAt Pipeline.owesWithin
  icases Ho with ⟨%W, %hW, HO⟩
  rw [show (dats m 0 c).owed t₀.castSucc = O₀ c from rfl]
  unfold O₀ O₁ sPts rPts
  have hmw := mayWait_bar (F := F) c
  have hrx := read_x (F := F)
  have hrs := read_s (F := F)
  have hrr := read_r (F := F)
  have hro := read_o (F := F)
  ihave Hx := (Entails.of_eq (x_pts_eq c _)) $$ Hx
  ihave Hout := (Entails.of_eq (o_pts_eq c _)) $$ Hout
  set_option sl_exec.maxSteps 12 in sl_exec (disch := simp only [dev1_eq, dev2_eq])
  ihave Hsv := (Entails.of_eq (s_restate m c fs0)) $$ Hs
  sl_exec (disch := simp only [dev1_eq, dev2_eq])
  -- both own cells are past their only round: closed, their counters at zero are the device's again
  imod (Rounds.cell_close ER (xchRd m) (Set.mem_univ (K (c, 1))) (fun h => h) (R := 1) (duties_later m (sendCell c))) $$ [HatS] with HzS
  · isplitr; · iexact HIsnd
    iexact HatS
  imod (Rounds.cell_close ER (xchRd m) (Set.mem_univ (K (c, 2))) (fun h => h) (R := 1) (duties_later m (recvCell c))) $$ [HatV] with HzV
  · isplitr; · iexact HIrcv
    iexact HatV
  rw [wp_ret]; imodintro
  iapply Hk
  unfold bodyPost Φ₁ Dat.owesAt Pipeline.owesWithin sPts rPts
  rw [show (dats m 0 c).owed t₀.succ = 0 from rfl]
  isplitl [HatS_pay1 HatV_pay1 HzS HzV]
  · isplitl [HatS_pay1]; · iexact HatS_pay1
    isplitl [HatV_pay1]; · iexact HatV_pay1
    isplitl [HzS]; · iexact HzS
    iexact HzV
  isplitl [HO]
  · iexists _
    isplitr; swap
    · iexact HO
    · ipureintro; exact fun _ _ => Or.inl trivial
  isplitl [Hx]
  · iexists _; isplitr; · (ipureintro; rfl)
    ihave Hx' := (Entails.of_eq (x_pts_eq c (xstg m c)).symm) $$ Hx
    iexact Hx'
  iexists _; isplitr; · (ipureintro; rfl)
  ihave Ho' := (Entails.of_eq (o_restate m c g1)) $$ Hout
  iexact Ho'

/-- info: 'Cert.KernelIdealProof.sound_body' depends on axioms: [propext, Classical.choice, Quot.sound] -/
#guard_msgs in #print axioms sound_body

/-- The body's start as the pipeline hands it over: the invariant before the point, what is owed, the two staging buffers. -/
def bodyPre' (c : Dev nD) : sProp 𝕄 :=
  iprop(Φ₀ m c ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

/-- The pipeline's body obligation on device `c`. -/
theorem body_obligation (c : Dev nD) : BodyObligation (dats (F := F) m 0 c) (defs₀ (F := F)) 𝒱₀ () Set.univ := fun t => by
  rw [fin_N t]
  rw [bigSep_W, bigSep_W]
  simp only [owns_whole_eq]
  show bodyPre' m c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _) cc0_scratch2 cc0_scratch3) (fun _ => bodyPost m c)
  unfold bodyPre' Φ₀ start
  iintro ⟨⟨⟨⟨%K, Hg⟩, Hrest⟩, Hs, Hr⟩, Ho, Hx, Hout⟩
  iapply (sound_body m K c fun _ => bodyPost m c)
  unfold bodyPre
  isplitr []
  · isplitl [Hg Hrest Hs Hr]
    · isplitl [Hg]; · iexact Hg
      icases Hrest with ⟨H1, H2, H3⟩
      isplitl [H1]; · iexact H1
      isplitl [H2]; · iexact H2
      isplitl [H3]; · iexact H3
      isplitl [Hs]; · iexact Hs
      iexact Hr
    isplitl [Ho]; · iexact Ho
    isplitl [Hx] <;> iassumption
  · iintro H; iexact H

end Body

end Cert.KernelIdealProof

end
-- ==== Proof.Launch.lean ====
/-
  The launch: from "each device's body is proved" to a run of the whole mesh.

  At launch every semaphore counter is zero. The exchange's three cells per device (barrier, send, receive)
  get their invariants under ONE update for all devices, because a device signals its partner's barrier
  cell and copies onto its partner's receive cell; the tokens of the duties are then dealt to the devices
  that PAY them: a barrier cell's and a receive cell's token go to the partner, a send cell's stays. Each
  device's launch credit is what the others owe its cells: one unit on its barrier cell and one row's
  credit on its receive cell, both from its partner. The run ends with every device's result row holding
  the elementwise maximum of its own column maxima and its partner's, and its block of `x` unchanged.
-/
import proofs.«900563_g7700000000000564_dist_max_ax0_xy_m1024_n512_v7x_xy2x2_f32_1_alg».proof.Proof.Body

set_option maxRecDepth 16384

noncomputable section

namespace Cert.KernelIdealProof

open Cert.KernelIdeal Cert.KernelIdeal.Gen Cert.Exchange

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The launch element -/

theorem ownSemFacts : Pipeline.OwnSemFacts cfg0.spec osem := by decide

theorem share_eq (c : Dev nD) (w : Fin cfg0.W) : (dats m 0 c).share w = fullShare := by unfold Dat.share; split <;> rfl

theorem kcell_injective : Function.Injective (kcell : Dev nD × Fin 3 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by fin_cases k <;> fin_cases k' <;> first | rfl | exact absurd h2 (by decide)
  subst this; rfl
def xchCells : Finset (GSem nD τ sig) := Finset.univ.map ⟨kcell, kcell_injective⟩

/-- Every cell's one duty token, as minted. -/
abbrev tokOf (ck : Dev nD × Fin 3) : GSem nD τ sig × ℕ × Unit := (kcell ck, 0, ())
theorem tokOf_injective : Function.Injective (tokOf : Dev nD × Fin 3 → GSem nD τ sig × ℕ × Unit) :=
  fun a b h => kcell_injective (congrArg Prod.fst h)
def xchToks : Finset (GSem nD τ sig × ℕ × Unit) := Finset.univ.map ⟨tokOf, tokOf_injective⟩

def u₀ : UU :=
  (initOf (Pipeline.cells cfgs cellOf_inj) (Pipeline.launchToks cfgs cellOf_inj), initOf xchCells xchToks)

/-- The duty tokens of device `c`'s own cells. -/
def toks (c : Dev nD) : sProp 𝕄 :=
  iprop(dutyTok ER (barCell c) 0 () ∗ dutyTok ER (sendCell c) 0 () ∗ dutyTok ER (recvCell c) 0 ())

/-- What the launch element deals device `c`. -/
def G (c : Dev nD) : sProp 𝕄 :=
  iprop((bigSep Finset.univ fun k : Fin 3 => roundState ER (xchRd m) (kcell (c, k)) 0)
    ∗ (bigSep Finset.univ fun k : Fin 3 => iprop(atPos ER (kcell (c, k)) 0 ∅ 0 ∗ reached ER (kcell (c, k)) 0)) ∗ toks c)

/-- What the global step makes of it. -/
def G' (c : Dev nD) : sProp 𝕄 := iprop(∃ K, ghost m K c)

theorem bigSep_fin3 (Φ : Fin 3 → sProp 𝕄) : bigSep Finset.univ Φ = iprop(Φ 0 ∗ Φ 1 ∗ Φ 2) := bigSep_univ_eq_bigSepL [0, 1, 2] (by decide) (by decide) Φ

theorem fund_xch : BI.own (ER (initOf xchCells xchToks)) ⊢ (|==> bigSep Finset.univ (G m) : sProp 𝕄) := by
  have hX (Φ : GSem nD τ sig → sProp 𝕄) : bigSep xchCells Φ = bigSep Finset.univ fun c : Dev nD => bigSep Finset.univ fun k : Fin 3 => Φ (kcell (c, k)) := by
    unfold xchCells; rw [bigSep_map, bigSep_univ_prod]; rfl
  have hT : bigSep xchToks (fun x => (dutyTok ER x.1 x.2.1 x.2.2 : sProp 𝕄)) = bigSep Finset.univ fun c : Dev nD => toks c := by
    unfold xchToks; rw [bigSep_map, bigSep_univ_prod]
    exact bigSep_congr fun c _ => by unfold toks; rw [bigSep_fin3]; rfl
  iintro HX
  imod (Rounds.fund ER (xchRd m) xchCells xchToks) $$ HX with ⟨Hst, Hr, Hat, Htok⟩
  imodintro
  ihave Hst' := (Entails.of_eq (hX fun g => roundState ER (xchRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The send and receive semaphores are the kernel's own two; -/
theorem ownSems0_eq (c : Dev nD) : (Pipeline.ownSems0 (Ix := Unit) (Name := ℕ) (U := UU) (Lvl := ℕ) (Val := Elt F) (τ := τ) osem c : sProp 𝕄)
    = iprop(semVal (sendCell c) 0 ∗ semVal (recvCell c) 0) := by
  rw [Pipeline.ownSems0_eq_of_list c osem [0, 1] (by decide) (by decide)]; rfl
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 3 => semVal (kcell (c, k)) 0 : sProp 𝕄) := by
  rw [ownSems0_eq, unscopedSems0_eq, bigSep_fin3]
  iintro ⟨⟨HS, HV⟩, HB⟩
  isplitl [HB]; · iexact HB
  isplitl [HS] <;> iassumption

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (xchRd m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 3 => semVal (kcell (c, k)) 0) ∗ bigSep Finset.univ fun k : Fin 3 => roundState ER (xchRd m) (kcell (c, k)) 0)
      ⊢ (|={Set.univ}=> bigSep Finset.univ fun k => iprop(∃ κ : ℕ, cellInv ER (xchRd m) κ (kcell (c, k))) : sProp 𝕄) from by
        rw [← bigSep_sep']
        exact (bigSep_mono fun k _ => (Rounds.body_intro ER (xchRd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

def records (K : Dev nD × Fin 3 → ℕ) : sProp 𝕄 :=
  iprop((bigSep Finset.univ fun ck : Dev nD × Fin 3 => cellInv ER (xchRd m) (K ck) (kcell ck))
    ∗ bigSep Finset.univ fun ck : Dev nD × Fin 3 => reached ER (kcell ck) 0)

instance records_persistent (K : Dev nD × Fin 3 → ℕ) : BI.Persistent (records m K) := by unfold records; infer_instance

theorem inv_at (K : Dev nD × Fin 3 → ℕ) (ck : Dev nD × Fin 3) :
    (bigSep Finset.univ fun ck : Dev nD × Fin 3 => (cellInv ER (xchRd m) (K ck) (kcell ck) : sProp 𝕄)) ⊢ cellInv ER (xchRd m) (K ck) (kcell ck) :=
  bigSep_elim (Finset.mem_univ ck)
theorem reached_at (ck : Dev nD × Fin 3) :
    (bigSep Finset.univ fun ck : Dev nD × Fin 3 => (reached ER (kcell ck) 0 : sProp 𝕄)) ⊢ reached ER (kcell ck) 0 :=
  bigSep_elim (Finset.mem_univ ck)

/-- What stays with device `c`: its positions, and the tokens of the duties IT pays. -/
def payToks (c : Dev nD) : sProp 𝕄 :=
  iprop(dutyTok ER (barCell (peer c)) 0 () ∗ dutyTok ER (recvCell (peer c)) 0 () ∗ dutyTok ER (sendCell c) 0 ())
def linear (c : Dev nD) : sProp 𝕄 :=
  iprop((atPos ER (barCell c) 0 ∅ 0 ∗ atPos ER (sendCell c) 0 ∅ 0 ∗ atPos ER (recvCell c) 0 ∅ 0) ∗ payToks c)

theorem ghost_intro (K : Dev nD × Fin 3 → ℕ) (c : Dev nD) : iprop(records m K ∗ linear c) ⊢ G' m c := by
  unfold records linear payToks G' ghost invs
  iintro ⟨⟨#HI, #HR⟩, ⟨HaB, HaS, HaV⟩, HtBP, HtVP, HtS⟩
  iexists K
  isplitr
  · isplitr; · iapply (inv_at m K (c, 0)); iexact HI
    isplitr; · iapply (inv_at m K (c, 1)); iexact HI
    isplitr; · iapply (inv_at m K (c, 2)); iexact HI
    isplitr; · iapply (inv_at m K (peer c, 0)); iexact HI
    iapply (inv_at m K (peer c, 2)); iexact HI
  isplitl [HaB]; · iexact HaB
  isplitl [HaS]; · iexact HaS
  isplitl [HaV]; · iexact HaV
  isplitr; · iapply (reached_at (F := F) (peer c, 0)); iexact HR
  isplitr; · iapply (reached_at (F := F) (peer c, 2)); iexact HR
  isplitr; · iapply (reached_at (F := F) (c, 1)); iexact HR
  isplitr; · iapply (reached_at (F := F) (c, 2)); iexact HR
  isplitl [HtBP]; · iexact HtBP
  isplitl [HtVP]; · iexact HtVP
  iexact HtS

/-- The tokens dealt across: a barrier cell's and a receive cell's token go to the partner, who pays them. -/
theorem toks_across : (bigSep Finset.univ fun c : Dev nD => (toks c : sProp 𝕄)) ⊢ bigSep Finset.univ fun c : Dev nD => payToks c := by
  unfold toks payToks
  rw [bigSep_sep', bigSep_sep', bigSep_sep', bigSep_sep',
    bigSep_univ_equiv swap (fun c : Dev nD => (dutyTok ER (barCell c) 0 () : sProp 𝕄)),
    bigSep_univ_equiv swap (fun c : Dev nD => (dutyTok ER (recvCell c) 0 () : sProp 𝕄))]
  iintro ⟨H1, H2, H3⟩
  isplitl [H1]; · iexact H1
  isplitl [H3]; · iexact H3
  iexact H2

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (xchRd m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 3 => iprop(∃ κ : ℕ, cellInv ER (xchRd m) κ (kcell ck))),
    bigSep_congr (s := Finset.univ) (fun (c : Dev nD) _ => bigSep_sep' Finset.univ (fun k : Fin 3 => (atPos ER (kcell (c, k)) 0 ∅ 0 : sProp 𝕄)) (fun k => reached ER (kcell (c, k)) 0)),
    bigSep_sep', ← bigSep_univ_prod (fun ck : Dev nD × Fin 3 => (reached ER (kcell ck) 0 : sProp 𝕄))]
  iintro ⟨HI, ⟨Hat, #HR⟩, Htok⟩
  ihave HK := (BI.bigSep_exists_pi Finset.univ (fun (ck : Dev nD × Fin 3) (κ : ℕ) => (cellInv ER (xchRd m) κ (kcell ck) : sProp 𝕄))) $$ HI
  icases HK with ⟨%K, #HI⟩
  ihave Htk := (toks_across (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : Fin 3 => (atPos ER (kcell (c, k)) 0 ∅ 0 : sProp 𝕄)) payToks).symm).trans
      (bigSep_mono fun c _ => show _ ⊢ linear c from Entails.of_eq (by unfold linear; rw [bigSep_fin3])))
    isplitl [Hat]; · iexact Hat
    iexact Htk

/-- The global step: own AND unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ### The launch credit -/

theorem bar_eq_iff {a b : Dev nD} : Iff (barCell a = barCell b) (a = b) :=
  ⟨fun h => Fin.ext (congrArg (fun g : GSem nD τ sig => g.1.1.val) h), fun h => h ▸ rfl⟩
theorem recv_eq_iff {a b : Dev nD} : Iff (recvCell a = recvCell b) (a = b) :=
  ⟨fun h => Fin.ext (congrArg (fun g : GSem nD τ sig => g.1.1.val) h), fun h => h ▸ rfl⟩

/-- What device `d` owes device `c`'s barrier cell: one unit if `d` is `c`'s partner. -/
theorem owed_bar (d c : Dev nD) : O₀ d (barCell c) () = if d = peer c then 1 else 0 := by
  unfold O₀ O₁
  rw [Pi.add_apply, Finsupp.add_apply, tallyAt_ne_cell (fun h => recv_ne_bar (congrArg Prod.snd h).symm),
    tallyAt_apply, Finsupp.zero_apply, Nat.zero_add]
  by_cases h : d = peer c
  · subst h; rw [peer_peer, if_pos ⟨rfl, rfl⟩, if_pos rfl]
  · rw [if_neg (fun ⟨h1, _⟩ => h (by rw [← peer_peer d]; exact congrArg peer (bar_eq_iff.mp h1).symm)), if_neg h]

/-- What device `d` owes device `c`'s receive cell: the row's credit if `d` is `c`'s partner. -/
theorem owed_recv (d c : Dev nD) : O₀ d (recvCell c) () = if d = peer c then N else 0 := by
  unfold O₀ O₁
  rw [Pi.add_apply, Finsupp.add_apply, tallyAt_apply,
    tallyAt_ne_cell (fun h => recv_ne_bar (congrArg Prod.snd h)), Finsupp.zero_apply, Nat.add_zero]
  by_cases h : d = peer c
  · subst h; rw [peer_peer, if_pos ⟨rfl, rfl⟩, if_pos rfl]
  · rw [if_neg (fun ⟨h1, _⟩ => h (by rw [← peer_peer d]; exact congrArg peer (recv_eq_iff.mp h1).symm)), if_neg h]

theorem launch_bar (c : Dev nD) :
    tallyOn (barCell c) (launchCredit (Pipeline.owing O₀) 0 (barCell c)) = (tallyAt (barCell c) () 1 : CellTallies nD τ sig Unit) := by
  unfold tallyAt; refine congrArg _ (Finsupp.ext fun u => ?_); cases u
  rw [Pipeline.launchCredit_owing, Finsupp.single_eq_same, Finset.sum_congr rfl fun d _ => owed_bar d c,
    Finset.sum_ite_eq' Finset.univ (peer c) fun _ => 1, if_pos (Finset.mem_univ _)]

theorem launch_recv (c : Dev nD) :
    tallyOn (recvCell c) (launchCredit (Pipeline.owing O₀) 0 (recvCell c)) = (tallyAt (recvCell c) () N : CellTallies nD τ sig Unit) := by
  unfold tallyAt; refine congrArg _ (Finsupp.ext fun u => ?_); cases u
  rw [Pipeline.launchCredit_owing, Finsupp.single_eq_same, Finset.sum_congr rfl fun d _ => owed_recv d c, Finset.sum_ite_eq' Finset.univ (peer c) fun _ => N,
    if_pos (Finset.mem_univ _)]

theorem creds (c : Dev nD) :
    (Pipeline.launchCred O₀ c : sProp 𝕄) ⊢ iprop(cred (tallyAt (barCell c) () 1) ∗ cred (tallyAt (recvCell c) () N)) := by
  unfold Pipeline.launchCred
  rw [bigSep_univ_at _ (SemLoc.reg barS), launch_bar]
  refine sep_mono_right ?_
  rw [← launch_recv]
  exact bigSep_elim (Finset.mem_erase.mpr ⟨recv_ne_bar, Finset.mem_univ _⟩)

/-! ### The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, ⟨%fs, Hsb⟩, ⟨%fr, Hrb⟩⟩
  isplitl [Hs]; · iexact Hs
  isplitl [Hsb]
  · iexists fs; rw [sPts_eq]; iexact Hsb
  · iexists fr; rw [rPts_eq]; iexact Hrb

theorem phi1_exit (c : Dev nD) :
    (dats m 0 c).Φ (Fin.last cfg0.N) ⊢ iprop(emp ∗ Pipeline.ownSems0 osem c ∗ Pipeline.scopedRest cfg0.spec c) := by
  rw [show (dats m 0 c).Φ (Fin.last cfg0.N) = Φ₁ m c from rfl, scopedRest0_eq, ownSems0_eq]
  unfold Φ₁
  iintro ⟨Hsb, Hrb, HzS, HzV⟩
  isplitr; · iempintro
  isplitl [HzS HzV]
  · isplitl [HzS] <;> iassumption
  isplitl [Hsb]
  · iexists (sendVal m c); rw [← sPts_eq]; iexact Hsb
  · iexists (landed m c); rw [← rPts_eq]; iexact Hrb

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ### The run -/

def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

set_option maxRecDepth 16384 in
/-- At the compiled mesh of four devices, for any float values, from any memory with zero counters: every weakly fair
    execution of @main — the two pairs of partners handshaking on the barrier semaphore, then exchanging their rows —
    terminates, and every final state has each window's array at the contents the proof data compute. -/
theorem run_main : θ_run defs (onTc (τ := τ) (main (F := F))) ⟨m, fun _ => 0, ρ⟩ (QC m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_xch m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun _ h c w => (h c).1 w)

/-- info: 'Cert.KernelIdealProof.run_main' depends on axioms: [propext, Classical.choice, Quot.sound] -/
#guard_msgs in #print axioms run_main

end Cert.KernelIdealProof

end
-- ==== Proof.Final.lean ====
/-
  What the two windowed arrays hold when the one-point pipeline has run.

  The region has one point. Window 0 is the input window over the device's block of `x`: an input array is never
  written back, so it holds at the end what it held at entry. Window 1 is the output window over the device's result
  row; it is written back at the one point, and its block there is the whole array at offset zero, so the array ends
  holding exactly what the body left in the staging buffer: the result row.
-/
import proofs.«900563_g7700000000000564_dist_max_ax0_xy_m1024_n512_v7x_xy2x2_f32_1_alg».proof.Proof.Protocol
import Idealize.ShloMosaic.Lib.Pipeline.Cells

noncomputable section

namespace Cert.KernelIdealProof

open Cert.KernelIdeal Cert.KernelIdeal.Gen Cert.Exchange

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- The input array after the region: as at entry, since an input window is never written back. -/
theorem arr_x (c : Dev nD) : (dats m 0 c).arrAt (0 : Fin 2) cfg0.N = m ((c : Thread nD τ).loc main_arg0) :=
  (dats m 0 c).arrAt_in (0 : Fin 2) rfl _

/-- The output window is written back at the one point. -/
theorem flush_1 : (cfg0.win (1 : Fin 2)).flush t₀ = true := by decide

/-- The output array after the region: the result row. The one point writes the whole staging block over the whole
    array (the block's offsets are the block index, zero, times the sizes), which replaces its contents. -/
theorem arr_o (c : Dev nD) : (dats m 0 c).arrAt (1 : Fin 2) cfg0.N = outAt m c := by
  have h := (dats m 0 c).arrAt_succ (1 : Fin 2) t₀
  rw [flush_1, if_pos rfl] at h
  have hN : cfg0.N = t₀.val + 1 := cfg0_N
  refine (congrArg ((dats m 0 c).arrAt (1 : Fin 2)) hN).trans (h.trans ?_)
  exact Memref.write_access_unit_zero_univ (Elt F) main_v1 (off := fun a => win0_1.index t₀ a * win0_1.size a)
    (funext fun a => Nat.zero_mul _) _ _ _

/-- info: 'Cert.KernelIdealProof.arr_o' depends on axioms: [propext, Classical.choice, Quot.sound] -/
#guard_msgs in #print axioms Cert.KernelIdealProof.arr_o

end Cert.KernelIdealProof

end
-- ==== Proof.Run.lean ====
/-
  The run of the whole mesh with its result NAMED: every device's result row ends as the elementwise maximum of
  the column maxima of its own block of `x` and of its partner's block, and its block of `x` ends unchanged.
-/
import proofs.«900563_g7700000000000564_dist_max_ax0_xy_m1024_n512_v7x_xy2x2_f32_1_alg».proof.Proof.Launch
import proofs.«900563_g7700000000000564_dist_max_ax0_xy_m1024_n512_v7x_xy2x2_f32_1_alg».proof.Proof.Final

noncomputable section

namespace Cert.KernelIdealProof

open Cert.KernelIdeal Cert.KernelIdeal.Gen Cert.Exchange

open Idealize.ShloMosaic
open Idealize.ShloMosaic.TcCoe
open Idealize.SL Idealize.SL.Sem

variable {F : FTy → Type} [FloatOps F]

variable (m : (ℓ : Loc nD τ sig) → Buf (Elt F) ℓ) (ρ : Dev nD → PrngReg)

/-- The input window's one block is the whole array: what the staging buffer holds is the device's block of `x`. -/
theorem xstg_eq (c : Dev nD) : xstg m c = m ((c : Thread nD τ).loc main_arg0) := by
  unfold xstg
  exact Memref.read_access_unit_zero (Elt F) main_arg0 (funext fun a => Nat.zero_mul _) _ _

/-- The result row as a function of the two blocks of `x`. -/
theorem outAt_eq (c : Dev nD) :
    outAt m c = k0_pay1 (k0_pay3 (k0_pay2 (m ((c : Thread nD τ).loc main_arg0)))) (k0_pay2 (m ((peer c : Thread nD τ).loc main_arg0))) := by
  unfold outAt landed sendVal
  rw [xstg_eq, xstg_eq]

theorem run_named : θ_run defs (onTc (τ := τ) (main (F := F))) ⟨m, fun _ => 0, ρ⟩ (fun r => ∀ c : Dev nD,
    r.2.mem ((c.tc : Thread nD τ).loc main_v1) = outAt m c
    ∧ r.2.mem ((c.tc : Thread nD τ).loc main_arg0) = m ((c.tc : Thread nD τ).loc main_arg0)) :=
  (θ_run defs _ _).mono (fun r h c => ⟨(h c (1 : Fin 2)).trans (arr_o m c), (h c (0 : Fin 2)).trans (arr_x m c)⟩) (run_main m ρ)

/-- info: 'Cert.KernelIdealProof.run_named' depends on axioms: [propext, Classical.choice, Quot.sound] -/
#guard_msgs in #print axioms run_named

end Cert.KernelIdealProof

end
-- ==== Proof.ProtocolK.lean ====
/-
  The exchange of column maxima between the two rows of a 2 × 2 mesh: the protocol, stated once for every device.

  Device `c` reduces its block of `x` to a row of column maxima in its send buffer, tells its partner
  `peer c` (same column, other row) that it is inside the kernel by one unit on the partner's barrier
  semaphore, waits for the partner's unit on its own, copies its send buffer into the partner's receive
  buffer, waits for the copy to leave and for the partner's copy to land, and stores the elementwise maximum
  of the two rows.

  Under the rounds discipline every cell has ONE round of ONE duty. A barrier cell's duty is paid by the
  partner's signal and hands over the partner's receive buffer (over some contents) together with the fact
  that the partner's receive cell is at round 0: what the copy into it needs. A send cell's duty is paid by
  the device's own copy once the source is read, and hands the send buffer back holding the column maxima.
  A receive cell's duty is paid by the partner's copy once it has landed, and hands over the receive buffer
  holding the PARTNER's column maxima. A device waits on its barrier cell (level 1) while it still owes the
  partner's receive cell (level 2): the levels rule out a cycle of waits.
-/
import proofs.«900563_g7700000000000564_dist_max_ax0_xy_m1024_n512_v7x_xy2x2_f32_1_alg».proof.Kernel
import proofs.«900563_g7700000000000564_dist_max_ax0_xy_m1024_n512_v7x_xy2x2_f32_1_alg».proof.Proof.Gen.Kernel
import proofs.«900563_g7700000000000564_dist_max_ax0_xy_m1024_n512_v7x_xy2x2_f32_1_alg».proof.Proof.Gen.Kernel.Skeleton
import proofs.«900563_g7700000000000564_dist_max_ax0_xy_m1024_n512_v7x_xy2x2_f32_1_alg».proof.Proof.Gen.Kernel.Launch
import proofs.«900563_g7700000000000564_dist_max_ax0_xy_m1024_n512_v7x_xy2x2_f32_1_alg».proof.Proof.Peer
import Idealize.ShloMosaic.Lib.Pipeline.Launch
import Idealize.ShloMosaic.Lib.Pipeline.Kit
import Idealize.ShloMosaic.Lib.Tactic

noncomputable section

namespace Cert.KernelProof

open Cert.Kernel Cert.Kernel.Gen Cert.Exchange

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy beside the exchange's (one duty a round, named by `Unit`) -/

abbrev UB : Type := URounds (GSem nD τ sig) Unit
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## The partner, as the kernel computes it -/

/-- Both device chains of the body (the signal's and the copy's) name the partner. -/
theorem dev1_eq (c : Dev nD) : (⟨k0_dev1 c, k0_dev1_lt c⟩ : Dev nD) = peer c := Fin.ext ((k0_dev1_eq c).trans (peer_val c).symm)
theorem dev2_eq (c : Dev nD) : (⟨k0_dev2 c, k0_dev2_lt c⟩ : Dev nD) = peer c := Fin.ext ((k0_dev2_eq c).trans (peer_val c).symm)

/-! ## The memrefs and cells -/

abbrev xM : Memref sig .tc .vmem S1024x512 .f32 := Memref.whole cc0_stg0_0
abbrev oM : Memref sig .tc .vmem S1x512 .f32 := Memref.whole cc0_stg1_0
/-- The send buffer (the row of this device's column maxima) and the receive buffer (where the partner's lands). -/
abbrev sM : Memref sig .tc .vmem S1x512 .f32 := Memref.whole cc0_scratch0
abbrev rM : Memref sig .tc .vmem S1x512 .f32 := Memref.whole cc0_scratch1

/-- The barrier semaphore of collective id 0 (not scoped to the launch); the copy's send and receive semaphores. -/
abbrev barS : Sem sig := (SemArray.scalar (sig.barrier 0 rfl) : Sems sig S_).sem
abbrev sendS : DmaSems sig S_ := cc0_scratch2
abbrev recvS : DmaSems sig S_ := cc0_scratch3

abbrev barCell (c : Dev nD) : GSem nD τ sig := ((c : Thread nD τ), .reg barS)
abbrev sendCell (c : Dev nD) : GSem nD τ sig := ((c : Thread nD τ), .dma sendS.sem)
abbrev recvCell (c : Dev nD) : GSem nD τ sig := ((c : Thread nD τ), .dma recvS.sem)

/-- The kernel's own (scoped) semaphores: send, receive; -/
abbrev osem : Fin 2 → SemLoc sig := fun | 0 => .dma sendS.sem | 1 => .dma recvS.sem
/-- all three of the exchange's: barrier, send, receive. -/
abbrev csem : Fin 3 → SemLoc sig := fun | 0 => .reg barS | 1 => .dma sendS.sem | 2 => .dma recvS.sem
abbrev kcell (ck : Dev nD × Fin 3) : GSem nD τ sig := ((ck.1 : Thread nD τ), csem ck.2)

/-- The units a copy of one row credits. -/
abbrev N : ℕ := (rM : Memref sig .tc .vmem S1x512 .f32).view.dmaCredit
theorem N_pos : 0 < N := View.dmaCredit_pos _ (by decide)

/-! ## Contents -/

/-- Device `c`'s block of `x`, as its input staging buffer holds it. -/
def xstg (c : Dev nD) : (cc0_stg0_0 : Ref sig .tc).ty.Contents (Elt F) :=
  (win0_0.blk (0 : Fin 1)).view.read (Elt F) (m ((c : Thread nD τ).loc main_arg0))

/-- The row of column maxima of device `c`'s block: what its send buffer holds after the first store. -/
def sendVal (c : Dev nD) : (cc0_scratch0 : Ref sig .tc).ty.Contents (Elt F) := k0_pay2 (xstg m c)

/-- What lands in device `c`'s receive buffer: the partner's row. -/
def landed (c : Dev nD) : Buf (Elt F) ((rM : Memref sig .tc .vmem S1x512 .f32).view.loc (c : Thread nD τ)) := sendVal m (peer c)

/-- The result row: the elementwise maximum of the device's own row and the partner's. -/
def outAt (c : Dev nD) : (cc0_stg1_0 : Ref sig .tc).ty.Contents (Elt F) := k0_pay1 (k0_pay3 (sendVal m c)) (landed m c)

/-- A whole send buffer written over a whole receive buffer is the send buffer's contents. -/
theorem landed_eq (c : Dev nD) (fd : Buf (Elt F) ((rM : Memref sig .tc .vmem S1x512 .f32).view.loc (c : Thread nD τ))) (fs : (cc0_scratch0 : Ref sig .tc).ty.Contents (Elt F)) :
    (rM : Memref sig .tc .vmem S1x512 .f32).view.write (Elt F) fd ((sM : Memref sig .tc .vmem S1x512 .f32).view.read (Elt F) fs) Finset.univ = fs := by
  show (View.whole cc0_scratch1).write (Elt F) fd ((View.whole cc0_scratch0).read (Elt F) fs) Finset.univ = fs
  rw [View.read_whole]
  exact View.write_whole_univ _ _ _

def rPts (c : Dev nD) (f : Buf (Elt F) ((rM : Memref sig .tc .vmem S1x512 .f32).view.loc (c : Thread nD τ))) : sProp 𝕄 :=
  (rM : Memref sig .tc .vmem S1x512 .f32).view.loc (c : Thread nD τ) ↦[(rM : Memref sig .tc .vmem S1x512 .f32).view.set]{fullShare} f
def sPts (c : Dev nD) (f : Buf (Elt F) ((sM : Memref sig .tc .vmem S1x512 .f32).view.loc (c : Thread nD τ))) : sProp 𝕄 :=
  (sM : Memref sig .tc .vmem S1x512 .f32).view.loc (c : Thread nD τ) ↦[(sM : Memref sig .tc .vmem S1x512 .f32).view.set]{fullShare} f

instance rPts_storable (c : Dev nD) (f) : BI.Storable (upEmb : UEmb _ 𝕄) (rPts (F := F) c f) := by unfold rPts; infer_instance
instance sPts_storable (c : Dev nD) (f) : BI.Storable (upEmb : UEmb _ 𝕄) (sPts (F := F) c f) := by unfold sPts; infer_instance

theorem r_set : (rM : Memref sig .tc .vmem S1x512 .f32).view.set = Finset.univ := View.set_whole _
theorem s_set : (sM : Memref sig .tc .vmem S1x512 .f32).view.set = Finset.univ := View.set_whole _
theorem rPts_eq (c : Dev nD) (f : Buf (Elt F) ((c : Thread nD τ).loc cc0_scratch1)) :
    rPts c f = (((c : Thread nD τ).loc cc0_scratch1) ↦{fullShare} f : sProp 𝕄) := by unfold rPts; rw [r_set]
theorem sPts_eq (c : Dev nD) (f : Buf (Elt F) ((c : Thread nD τ).loc cc0_scratch0)) :
    sPts c f = (((c : Thread nD τ).loc cc0_scratch0) ↦{fullShare} f : sProp 𝕄) := by unfold sPts; rw [s_set]

/-! ## The schedule -/

/-- What the partner's signal hands `c`: the partner's receive buffer and that the partner's receive cell is at round 0. -/
def barPay (c : Dev nD) : sProp 𝕄 := iprop((∃ f, rPts (peer c) f) ∗ reached ER (recvCell (peer c)) 0)
/-- What the partner's copy hands `c` once landed: `c`'s receive buffer holding the partner's row. -/
def recvPay (c : Dev nD) : sProp 𝕄 := rPts c (landed m c)
/-- What `c`'s own copy hands back once its source is read: the send buffer, still holding `c`'s row. -/
def sendPay (c : Dev nD) : sProp 𝕄 := sPts c (sendVal m c)

abbrev IsBar (g : GSem nD τ sig) : Prop := g.1.2 = .tc ∧ g.2 = .reg barS
abbrev IsXfer (g : GSem nD τ sig) : Prop := g.1.2 = .tc ∧ (g.2 = .dma sendS.sem ∨ g.2 = .dma recvS.sem)

/-- One round, round 0, one duty on each of a TensorCore's three cells: one unit on the barrier cell, the row's credit
    on the send and receive cells. -/
def xchRd : Rounds.Schedule (GSem nD τ sig) Unit 𝕄 where
  duties g r := if r = 0 ∧ (IsBar g ∨ IsXfer g) then {()} else ∅
  unitless _ := False
  amount g _ _ := if g.2 = .reg barS then 1 else N
  payload g _ _ :=
    if g.2 = .reg barS then barPay g.1.1
    else if g.2 = .dma recvS.sem then recvPay m g.1.1
    else if g.2 = .dma sendS.sem then sendPay m g.1.1
    else iprop(emp)
  amount_pos g _ _ _ := by
    by_cases h : g.2 = .reg barS
    · rw [if_pos h]; exact Nat.one_pos
    · rw [if_neg h]; exact N_pos

instance xchRd_payload_storable (g : GSem nD τ sig) (r : ℕ) (d : Unit) :
    BI.Storable (upEmb : UEmb _ 𝕄) ((xchRd (F := F) m).payload g r d) := by
  show BI.Storable upEmb (if g.2 = .reg barS then barPay g.1.1 else if g.2 = .dma recvS.sem then recvPay m g.1.1
    else if g.2 = .dma sendS.sem then sendPay m g.1.1 else iprop(emp))
  unfold barPay recvPay sendPay
  (repeat' split) <;> infer_instance

section Sched
variable (c : Dev nD)

theorem send_ne_bar : (SemLoc.dma sendS.sem : SemLoc sig) ≠ .reg barS := fun h => by cases h
theorem recv_ne_bar : (SemLoc.dma recvS.sem : SemLoc sig) ≠ .reg barS := fun h => by cases h
theorem send_ne_recv : (SemLoc.dma sendS.sem : SemLoc sig) ≠ .dma recvS.sem := by decide
theorem recv_ne_send : (SemLoc.dma recvS.sem : SemLoc sig) ≠ .dma sendS.sem := by decide

theorem duties_bar : (xchRd (F := F) m).duties (barCell c) 0 = {()} := by dsimp only [xchRd]; exact if_pos ⟨rfl, .inl ⟨rfl, rfl⟩⟩
theorem duties_send : (xchRd (F := F) m).duties (sendCell c) 0 = {()} := by dsimp only [xchRd]; exact if_pos ⟨rfl, .inr ⟨rfl, .inl rfl⟩⟩
theorem duties_recv : (xchRd (F := F) m).duties (recvCell c) 0 = {()} := by dsimp only [xchRd]; exact if_pos ⟨rfl, .inr ⟨rfl, .inr rfl⟩⟩
theorem duties_later (g : GSem nD τ sig) : ∀ r, 1 ≤ r → (xchRd (F := F) m).duties g r = ∅ :=
  fun r hr => by dsimp only [xchRd]; rw [if_neg fun h => by omega]

theorem amount_bar (d : Unit) : (xchRd (F := F) m).amount (barCell c) 0 d = 1 := by dsimp only [xchRd]; exact if_pos rfl
theorem amount_send (d : Unit) : (xchRd (F := F) m).amount (sendCell c) 0 d = N := by dsimp only [xchRd]; exact if_neg send_ne_bar
theorem amount_recv (d : Unit) : (xchRd (F := F) m).amount (recvCell c) 0 d = N := by dsimp only [xchRd]; exact if_neg recv_ne_bar

theorem expect_bar : (xchRd (F := F) m).expect (barCell c) 0 = 1 := by
  unfold Schedule.expect Schedule.amountOf; rw [duties_bar, Finset.sum_singleton, amount_bar]
theorem expect_send : (xchRd (F := F) m).expect (sendCell c) 0 = N := by
  unfold Schedule.expect Schedule.amountOf; rw [duties_send, Finset.sum_singleton, amount_send]
theorem expect_recv : (xchRd (F := F) m).expect (recvCell c) 0 = N := by
  unfold Schedule.expect Schedule.amountOf; rw [duties_recv, Finset.sum_singleton, amount_recv]

theorem payload_bar (d : Unit) : (xchRd (F := F) m).payload (barCell c) 0 d = barPay c := by dsimp only [xchRd]; rw [if_pos rfl]
theorem payload_send (d : Unit) : (xchRd (F := F) m).payload (sendCell c) 0 d = sendPay m c := by
  dsimp only [xchRd]; rw [if_neg send_ne_bar, if_neg send_ne_recv, if_pos rfl]
theorem payload_recv (d : Unit) : (xchRd (F := F) m).payload (recvCell c) 0 d = recvPay m c := by
  dsimp only [xchRd]; rw [if_neg recv_ne_bar, if_pos rfl]

/-- The whole of a cell's round, no duty taken yet: its one payload. -/
theorem rest_bar : bigSep ((xchRd (F := F) m).duties (barCell c) 0 \ ∅) (fun d => (xchRd (F := F) m).payload (barCell c) 0 d) = barPay c := by
  rw [Finset.sdiff_empty, duties_bar, bigSep_singleton, payload_bar]
theorem rest_send : bigSep ((xchRd (F := F) m).duties (sendCell c) 0 \ ∅) (fun d => (xchRd (F := F) m).payload (sendCell c) 0 d) = sendPay m c := by
  rw [Finset.sdiff_empty, duties_send, bigSep_singleton, payload_send]
theorem rest_recv : bigSep ((xchRd (F := F) m).duties (recvCell c) 0 \ ∅) (fun d => (xchRd (F := F) m).payload (recvCell c) 0 d) = recvPay m c := by
  rw [Finset.sdiff_empty, duties_recv, bigSep_singleton, payload_recv]

end Sched

/-! ## What each device owes at launch; the levels -/

/-- Device `c` owes its partner's receive cell the row's credit and its partner's barrier cell one unit — summed so
    that the signal, which comes first, peels the last summand. -/
def O₁ (c : Dev nD) : CellTallies nD τ sig Unit := tallyAt (recvCell (peer c)) () N
def O₀ (c : Dev nD) : CellTallies nD τ sig Unit := O₁ c + tallyAt (barCell (peer c)) () 1

def L (g : GSem nD τ sig) : Finset Unit := if g.1.2 = .tc then {()} else ∅
/-- Barrier cells at 1, receive cells at 2, everything else (staging, send) at 0. -/
def lv (g : GSem nD τ sig) (_ : Unit) : ℕ := if g.2 = .reg barS then 1 else if g.2 = .dma recvS.sem then 2 else 0

theorem L_of_ne (g : GSem nD τ sig) (h : g.1.2 ≠ .tc) : L g = ∅ := if_neg h
theorem L_tc (c : Dev nD) (sm : SemLoc sig) : L ((c : Thread nD τ), sm) = {()} := if_pos rfl

theorem O₀_pos {c : Dev nD} {g : GSem nD τ sig} {u : Unit} (h : 0 < O₀ c g u) :
    g = recvCell (peer c) ∨ g = barCell (peer c) := by
  unfold O₀ O₁ at h
  rw [Pi.add_apply, Finsupp.add_apply, tallyAt_apply, tallyAt_apply] at h
  by_contra hn
  rw [not_or] at hn
  rw [if_neg (fun h' => hn.1 h'.1), if_neg (fun h' => hn.2 h'.1)] at h
  exact Nat.lt_irrefl 0 h

/-- A wait on a cell that is neither a barrier nor a receive cell (level 0), owing the launch debt or nothing. -/
theorem mayWait_stage (c : Dev nD) (q : DmaSem sig) (hq : SemLoc.dma q ≠ .dma recvS.sem) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with rfl | rfl <;> exact Finset.mem_singleton_self _)
      (fun p hp => by rw [Finset.mem_singleton.mp hp]; dsimp only [lv]; rw [if_neg (fun h => by cases h), if_neg hq])
      (fun g u hg => by
        rcases O₀_pos hg with rfl | rfl
        · dsimp only [lv]; rw [if_neg recv_ne_bar, if_pos rfl]; decide
        · dsimp only [lv]; rw [if_pos rfl]; decide)
  · rw [MayWait_zero]; iintro -; iempintro

/-- At its barrier wait a device owes its partner's receive credit only: a receive cell, above its barrier cell. -/
theorem mayWait_bar (c : Dev nD) :
    (levAts L lv : sProp 𝕄) ⊢ MayWait (c : Thread nD τ) (.reg barS) () (tallyAt (recvCell (peer c)) () N) :=
  MayOwe.of_cut (L := L) (lev := lv) 1 (fun p hp => by rw [Finset.mem_singleton.mp hp, L_tc]; exact Finset.mem_singleton_self _)
    (fun g u hg => by
      rw [tallyAt_apply] at hg
      by_cases h : g = recvCell (peer c) ∧ u = ()
      · rw [h.1, L_tc]; exact Finset.mem_singleton_self _
      · rw [if_neg h] at hg; exact absurd hg (Nat.lt_irrefl 0))
    (fun p hp => by rw [Finset.mem_singleton.mp hp]; dsimp only [lv]; rw [if_pos rfl])
    (fun g u hg => by
      rw [tallyAt_apply] at hg
      by_cases h : g = recvCell (peer c) ∧ u = ()
      · rw [h.1]; dsimp only [lv]; rw [if_neg recv_ne_bar, if_pos rfl]; decide
      · rw [if_neg h] at hg; exact absurd hg (Nat.lt_irrefl 0))

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The cells' invariants device `c`'s body opens, under the names `K` the launch allocated them at: its own three, its
    partner's barrier cell (its signal) and its partner's receive cell (its copy). -/
def invs (K : Dev nD × Fin 3 → ℕ) (c : Dev nD) : sProp 𝕄 :=
  iprop(cellInv ER (xchRd m) (K (c, 0)) (barCell c) ∗ cellInv ER (xchRd m) (K (c, 1)) (sendCell c) ∗ cellInv ER (xchRd m) (K (c, 2)) (recvCell c)
    ∗ cellInv ER (xchRd m) (K (peer c, 0)) (barCell (peer c)) ∗ cellInv ER (xchRd m) (K (peer c, 2)) (recvCell (peer c)))

instance invs_persistent (K : Dev nD × Fin 3 → ℕ) (c : Dev nD) : BI.Persistent (invs m K c) := by unfold invs; infer_instance

/-- The exchange's ghost state device `c` starts from: the invariants; its positions at round 0 of its three cells; round 0
    reached on the cells it pays and on its own send and receive cells; the three duty tokens it pays with — its partner's
    barrier duty, its partner's receive duty, its own send duty. -/
def ghost (K : Dev nD × Fin 3 → ℕ) (c : Dev nD) : sProp 𝕄 :=
  iprop(invs m K c
    ∗ atPos ER (barCell c) 0 ∅ 0 ∗ atPos ER (sendCell c) 0 ∅ 0 ∗ atPos ER (recvCell c) 0 ∅ 0
    ∗ reached ER (barCell (peer c)) 0 ∗ reached ER (recvCell (peer c)) 0 ∗ reached ER (sendCell c) 0 ∗ reached ER (recvCell c) 0
    ∗ dutyTok ER (barCell (peer c)) 0 () ∗ dutyTok ER (recvCell (peer c)) 0 () ∗ dutyTok ER (sendCell c) 0 ())

/-- What device `c`'s body starts from: that at some names, its two credit tokens (its barrier's unit, its receive cell's
    credit) and the level facts. -/
def start (c : Dev nD) : sProp 𝕄 :=
  iprop((∃ K, ghost m K c) ∗ cred (tallyAt (barCell c) () 1) ∗ cred (tallyAt (recvCell c) () N) ∗ levAts L lv)

def Φ₀ (c : Dev nD) : sProp 𝕄 := iprop(start m c ∗ (∃ f, sPts c f) ∗ (∃ f, rPts c f))
/-- After the point: the send buffer holding the device's row, the receive buffer holding the partner's, the two own cells
    at zero, closed (the barrier cell is not the launch's: nothing to hand back). -/
def Φ₁ (c : Dev nD) : sProp 𝕄 := iprop(sPts c (sendVal m c) ∗ rPts c (landed m c) ∗ semVal (sendCell c) 0 ∗ semVal (recvCell c) 0)

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

end Cert.KernelProof

end
-- ==== Proof.BodyK.lean ====
/-
  One device's body, stepped once at a symbolic device `c`.

  From the device's share of the exchange's ghost state, its launch credit, its two scratch rows and the two
  staging buffers, the body signals the partner, fills the send row with the column maxima of the block,
  waits for the partner's signal (which brings the partner's receive row), copies the send row into it,
  waits for the copy to leave (the send row comes back) and for the partner's copy to land (the receive row
  comes back holding the partner's column maxima), and stores the elementwise maximum in the output staging
  buffer. Afterwards the device owes nothing and its two own cells are closed at zero.
-/
import proofs.«900563_g7700000000000564_dist_max_ax0_xy_m1024_n512_v7x_xy2x2_f32_1_alg».proof.Proof.ProtocolK

set_option maxRecDepth 16384

noncomputable section

namespace Cert.KernelProof

open Cert.Kernel Cert.Kernel.Gen Cert.Exchange

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The schedule's tables with each payload spelt as the buffer it hands over -/

theorem payload_bar_pts (c : Dev nD) (d : Unit) :
    (xchRd (F := F) m).payload (barCell c) 0 d
      = iprop((∃ f, ((rM : Memref sig .tc .vmem S1x512 .f32).view.loc (peer c : Thread nD τ) ↦[(rM : Memref sig .tc .vmem S1x512 .f32).view.set]{fullShare} f : sProp 𝕄))
          ∗ reached ER (recvCell (peer c)) 0) := by
  rw [payload_bar]; rfl
theorem payload_send_pts (c : Dev nD) (d : Unit) :
    (xchRd (F := F) m).payload (sendCell c) 0 d
      = ((sM : Memref sig .tc .vmem S1x512 .f32).view.loc (c : Thread nD τ) ↦[(sM : Memref sig .tc .vmem S1x512 .f32).view.set]{fullShare} sendVal m c : sProp 𝕄) := by
  rw [payload_send]; rfl
theorem payload_recv_pts (c : Dev nD) (d : Unit) :
    (xchRd (F := F) m).payload (recvCell c) 0 d
      = ((rM : Memref sig .tc .vmem S1x512 .f32).view.loc (c : Thread nD τ) ↦[(rM : Memref sig .tc .vmem S1x512 .f32).view.set]{fullShare} landed m c : sProp 𝕄) := by
  rw [payload_recv]; rfl
/-- The partner's receive duty hands the partner THIS device's row: the partner's partner is the device itself. -/
theorem payload_recv_peer (c : Dev nD) (d : Unit) :
    (xchRd (F := F) m).payload (recvCell (peer c)) 0 d
      = ((rM : Memref sig .tc .vmem S1x512 .f32).view.loc (peer c : Thread nD τ) ↦[(rM : Memref sig .tc .vmem S1x512 .f32).view.set]{fullShare} sendVal m c : sProp 𝕄) := by
  rw [payload_recv]; unfold recvPay rPts landed; rw [peer_peer]

/-- The partner's barrier duty is paid by THIS device: it hands the partner this device's receive row and that this
    device's receive cell is at round 0. -/
theorem payload_bar_peer (c : Dev nD) (d : Unit) :
    (xchRd (F := F) m).payload (barCell (peer c)) 0 d
      = iprop((∃ f, ((rM : Memref sig .tc .vmem S1x512 .f32).view.loc (c : Thread nD τ) ↦[(rM : Memref sig .tc .vmem S1x512 .f32).view.set]{fullShare} f : sProp 𝕄))
          ∗ reached ER (recvCell c) 0) := by
  rw [payload_bar]; unfold barPay rPts; rw [peer_peer]

attribute [local sl_rounds] duties_bar duties_send duties_recv amount_bar amount_send amount_recv expect_bar expect_send expect_recv
  payload_bar_pts payload_send_pts payload_recv_pts
attribute [local sl_rounds high] payload_bar_peer payload_recv_peer
attribute [local sl_canon] dev1_eq dev2_eq

/-! ## The body -/

section Body

variable (K : Dev nD × Fin 3 → ℕ)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- The body reads and writes every buffer through its whole rectangle (offsets zero, the buffer's extents):
    such a read is the contents and such a write replaces them. -/
abbrev rX : Rect S1024x512 := Rect.unit (s := S1024x512) ![0, 0] S1024x512.size inb_S1024x512_S1024x512_0_0
abbrev rR : Rect S1x512 := Rect.unit (s := S1x512) ![0, 0] S1x512.size inb_S1x512_S1x512_0_0
theorem hz : (![0, 0] : Fin 2 → Nat) = fun _ => 0 := funext fun a => by fin_cases a <;> rfl
theorem read_x (f : (cc0_stg0_0 : Ref sig .tc).ty.Contents (Elt F)) : (xM : Memref sig .tc .vmem S1024x512 .f32).view.readAt (Elt F) rX.toLoadRect f = f :=
  Memref.readAt_unit_zero (Elt F) cc0_stg0_0 hz _ f
theorem read_s (f : (cc0_scratch0 : Ref sig .tc).ty.Contents (Elt F)) : (sM : Memref sig .tc .vmem S1x512 .f32).view.readAt (Elt F) rR.toLoadRect f = f :=
  Memref.readAt_unit_zero (Elt F) cc0_scratch0 hz _ f
theorem read_r (f : (cc0_scratch1 : Ref sig .tc).ty.Contents (Elt F)) : (rM : Memref sig .tc .vmem S1x512 .f32).view.readAt (Elt F) rR.toLoadRect f = f :=
  Memref.readAt_unit_zero (Elt F) cc0_scratch1 hz _ f
theorem read_o (f : (cc0_stg1_0 : Ref sig .tc).ty.Contents (Elt F)) : (oM : Memref sig .tc .vmem S1x512 .f32).view.readAt (Elt F) rR.toLoadRect f = f :=
  Memref.readAt_unit_zero (Elt F) cc0_stg1_0 hz _ f
theorem write_s (f w : (cc0_scratch0 : Ref sig .tc).ty.Contents (Elt F)) :
    ((sM : Memref sig .tc .vmem S1x512 .f32).access rR : View sig .tc _ _ _).write (Elt F) f w Finset.univ = w :=
  Memref.write_access_unit_zero_univ (Elt F) cc0_scratch0 hz _ f w
theorem write_o (f w : (cc0_stg1_0 : Ref sig .tc).ty.Contents (Elt F)) :
    ((oM : Memref sig .tc .vmem S1x512 .f32).access rR : View sig .tc _ _ _).write (Elt F) f w Finset.univ = w :=
  Memref.write_access_unit_zero_univ (Elt F) cc0_stg1_0 hz _ f w

/-- One whole-rectangle store into a row leaves the stored vector. -/
theorem writes_s (f w : (cc0_scratch0 : Ref sig .tc).ty.Contents (Elt F)) :
    (sM : Memref sig .tc .vmem S1x512 .f32).view.writes (Elt F) f [⟨rR, w⟩] = w :=
  (View.writes_singleton _ _ _ _).trans (write_s f w)
theorem writes_o (f w : (cc0_stg1_0 : Ref sig .tc).ty.Contents (Elt F)) :
    (oM : Memref sig .tc .vmem S1x512 .f32).view.writes (Elt F) f [⟨rR, w⟩] = w :=
  (View.writes_singleton _ _ _ _).trans (write_o f w)

/-- A whole staging buffer held through its memref's view. -/
theorem x_pts_eq (c : Dev nD) (f : Buf (Elt F) ((c : Thread nD τ).loc cc0_stg0_0)) :
    (((c : Thread nD τ).loc cc0_stg0_0) ↦{fullShare} f : sProp 𝕄)
      = ((xM : Memref sig .tc .vmem S1024x512 .f32).view.loc (c : Thread nD τ) ↦[(xM : Memref sig .tc .vmem S1024x512 .f32).view.set]{fullShare} f) := by
  rw [View.set_whole]
theorem o_pts_eq (c : Dev nD) (f : Buf (Elt F) ((c : Thread nD τ).loc cc0_stg1_0)) :
    (((c : Thread nD τ).loc cc0_stg1_0) ↦{fullShare} f : sProp 𝕄)
      = ((oM : Memref sig .tc .vmem S1x512 .f32).view.loc (c : Thread nD τ) ↦[(oM : Memref sig .tc .vmem S1x512 .f32).view.set]{fullShare} f) := by
  rw [View.set_whole]

/-- After its first store the send row holds the column maxima of the device's block. -/
theorem s_restate (c : Dev nD) (f : (cc0_scratch0 : Ref sig .tc).ty.Contents (Elt F)) :
    ((sM : Memref sig .tc .vmem S1x512 .f32).view.loc (c : Thread nD τ) ↦[(sM : Memref sig .tc .vmem S1x512 .f32).view.set]{fullShare}
        (sM : Memref sig .tc .vmem S1x512 .f32).view.writes (Elt F) f [⟨rR, k0_pay2 (xstg m c)⟩] : sProp 𝕄)
      = ((sM : Memref sig .tc .vmem S1x512 .f32).view.loc (c : Thread nD τ) ↦[(sM : Memref sig .tc .vmem S1x512 .f32).view.set]{fullShare} sendVal m c) := by
  rw [writes_s]; rfl

/-- After the last store the output staging buffer holds the result row. -/
theorem o_restate (c : Dev nD) (g : (cc0_stg1_0 : Ref sig .tc).ty.Contents (Elt F)) :
    ((oM : Memref sig .tc .vmem S1x512 .f32).view.loc (c : Thread nD τ) ↦[(oM : Memref sig .tc .vmem S1x512 .f32).view.set]{fullShare}
        (oM : Memref sig .tc .vmem S1x512 .f32).view.writes (Elt F) g [⟨rR, k0_pay1 (k0_pay3 (sendVal m c)) (landed m c)⟩] : sProp 𝕄)
      = (((c : Thread nD τ).loc cc0_stg1_0) ↦{fullShare} outAt m c) := by
  rw [writes_o, o_pts_eq c (outAt m c)]; rfl

/-- What the body starts from on device `c`. -/
def bodyPre (c : Dev nD) : sProp 𝕄 :=
  iprop((ghost m K c ∗ cred (tallyAt (barCell c) () 1) ∗ cred (tallyAt (recvCell c) () N) ∗ levAts L lv ∗ (∃ f, sPts c f) ∗ (∃ f, rPts c f))
    ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

/-- What it ends in. -/
def bodyPost (c : Dev nD) : sProp 𝕄 :=
  iprop(Φ₁ m c ∗ (dats m 0 c).owesAt () t₀.succ ∗ stg c cc0_stg0_0 (xstg m c) ∗ stg c cc0_stg1_0 (outAt m c))

set_option maxHeartbeats 1000000 in
theorem sound_body (c : Dev nD) (Kt : PUnit → sProp 𝕄) :
    iprop(bodyPre m K c ∗ (bodyPost m c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _) cc0_scratch2 cc0_scratch3) Kt := by
  simp only [cc0_body_eq_skeleton]; unfold cc0_body_skel
  simp only [k0_part1_eq_skeleton]; unfold k0_part1_skel
  simp only [dev1_eq, dev2_eq]
  unfold bodyPre ghost invs
  iintro ⟨⟨⟨⟨⟨#HIbar, #HIsnd, #HIrcv, #HIbarP, #HIrcvP⟩, HatB, HatS, HatV, #HrBP, #HrVP, #HrS, #HrV, HtBP, HtVP, HtS⟩, HcB, HcV, #Hlev, ⟨%fs0, Hs⟩, ⟨%fr0, Hr⟩⟩,
    Ho, ⟨%d0, %g0, %hg0, Hx⟩, ⟨%d1, %g1, %hg1, Hout⟩⟩, Hk⟩
  have hx : g0 = xstg m c := by rw [hg0]; unfold Dat.before; rw [if_pos (fetch_0 t₀)]; rfl
  subst hx
  unfold Dat.owesAt Pipeline.owesWithin
  icases Ho with ⟨%W, %hW, HO⟩
  rw [show (dats m 0 c).owed t₀.castSucc = O₀ c from rfl]
  unfold O₀ O₁ sPts rPts
  have hmw := mayWait_bar (F := F) c
  have hrx := read_x (F := F)
  have hrs := read_s (F := F)
  have hrr := read_r (F := F)
  have hro := read_o (F := F)
  ihave Hx := (Entails.of_eq (x_pts_eq c _)) $$ Hx
  ihave Hout := (Entails.of_eq (o_pts_eq c _)) $$ Hout
  set_option sl_exec.maxSteps 12 in sl_exec (disch := simp only [dev1_eq, dev2_eq])
  ihave Hsv := (Entails.of_eq (s_restate m c fs0)) $$ Hs
  sl_exec (disch := simp only [dev1_eq, dev2_eq])
  -- both own cells are past their only round: closed, their counters at zero are the device's again
  imod (Rounds.cell_close ER (xchRd m) (Set.mem_univ (K (c, 1))) (fun h => h) (R := 1) (duties_later m (sendCell c))) $$ [HatS] with HzS
  · isplitr; · iexact HIsnd
    iexact HatS
  imod (Rounds.cell_close ER (xchRd m) (Set.mem_univ (K (c, 2))) (fun h => h) (R := 1) (duties_later m (recvCell c))) $$ [HatV] with HzV
  · isplitr; · iexact HIrcv
    iexact HatV
  rw [wp_ret]; imodintro
  iapply Hk
  unfold bodyPost Φ₁ Dat.owesAt Pipeline.owesWithin sPts rPts
  rw [show (dats m 0 c).owed t₀.succ = 0 from rfl]
  isplitl [HatS_pay1 HatV_pay1 HzS HzV]
  · isplitl [HatS_pay1]; · iexact HatS_pay1
    isplitl [HatV_pay1]; · iexact HatV_pay1
    isplitl [HzS]; · iexact HzS
    iexact HzV
  isplitl [HO]
  · iexists _
    isplitr; swap
    · iexact HO
    · ipureintro; exact fun _ _ => Or.inl trivial
  isplitl [Hx]
  · iexists _; isplitr; · (ipureintro; rfl)
    ihave Hx' := (Entails.of_eq (x_pts_eq c (xstg m c)).symm) $$ Hx
    iexact Hx'
  iexists _; isplitr; · (ipureintro; rfl)
  ihave Ho' := (Entails.of_eq (o_restate m c g1)) $$ Hout
  iexact Ho'

/-- info: 'Cert.KernelProof.sound_body' depends on axioms: [propext, Classical.choice, Quot.sound] -/
#guard_msgs in #print axioms sound_body

/-- The body's start as the pipeline hands it over: the invariant before the point, what is owed, the two staging buffers. -/
def bodyPre' (c : Dev nD) : sProp 𝕄 :=
  iprop(Φ₀ m c ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

/-- The pipeline's body obligation on device `c`. -/
theorem body_obligation (c : Dev nD) : BodyObligation (dats (F := F) m 0 c) (defs₀ (F := F)) 𝒱₀ () Set.univ := fun t => by
  rw [fin_N t]
  rw [bigSep_W, bigSep_W]
  simp only [owns_whole_eq]
  show bodyPre' m c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _) cc0_scratch2 cc0_scratch3) (fun _ => bodyPost m c)
  unfold bodyPre' Φ₀ start
  iintro ⟨⟨⟨⟨%K, Hg⟩, Hrest⟩, Hs, Hr⟩, Ho, Hx, Hout⟩
  iapply (sound_body m K c fun _ => bodyPost m c)
  unfold bodyPre
  isplitr []
  · isplitl [Hg Hrest Hs Hr]
    · isplitl [Hg]; · iexact Hg
      icases Hrest with ⟨H1, H2, H3⟩
      isplitl [H1]; · iexact H1
      isplitl [H2]; · iexact H2
      isplitl [H3]; · iexact H3
      isplitl [Hs]; · iexact Hs
      iexact Hr
    isplitl [Ho]; · iexact Ho
    isplitl [Hx] <;> iassumption
  · iintro H; iexact H

end Body

end Cert.KernelProof

end
-- ==== Proof.LaunchK.lean ====
/-
  The launch: from "each device's body is proved" to a run of the whole mesh.

  At launch every semaphore counter is zero. The exchange's three cells per device (barrier, send, receive)
  get their invariants under ONE update for all devices, because a device signals its partner's barrier
  cell and copies onto its partner's receive cell; the tokens of the duties are then dealt to the devices
  that PAY them: a barrier cell's and a receive cell's token go to the partner, a send cell's stays. Each
  device's launch credit is what the others owe its cells: one unit on its barrier cell and one row's
  credit on its receive cell, both from its partner. The run ends with every device's result row holding
  the elementwise maximum of its own column maxima and its partner's, and its block of `x` unchanged.
-/
import proofs.«900563_g7700000000000564_dist_max_ax0_xy_m1024_n512_v7x_xy2x2_f32_1_alg».proof.Proof.BodyK

set_option maxRecDepth 16384

noncomputable section

namespace Cert.KernelProof

open Cert.Kernel Cert.Kernel.Gen Cert.Exchange

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The launch element -/

theorem ownSemFacts : Pipeline.OwnSemFacts cfg0.spec osem := by decide

theorem share_eq (c : Dev nD) (w : Fin cfg0.W) : (dats m 0 c).share w = fullShare := by unfold Dat.share; split <;> rfl

theorem kcell_injective : Function.Injective (kcell : Dev nD × Fin 3 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by fin_cases k <;> fin_cases k' <;> first | rfl | exact absurd h2 (by decide)
  subst this; rfl
def xchCells : Finset (GSem nD τ sig) := Finset.univ.map ⟨kcell, kcell_injective⟩

/-- Every cell's one duty token, as minted. -/
abbrev tokOf (ck : Dev nD × Fin 3) : GSem nD τ sig × ℕ × Unit := (kcell ck, 0, ())
theorem tokOf_injective : Function.Injective (tokOf : Dev nD × Fin 3 → GSem nD τ sig × ℕ × Unit) :=
  fun a b h => kcell_injective (congrArg Prod.fst h)
def xchToks : Finset (GSem nD τ sig × ℕ × Unit) := Finset.univ.map ⟨tokOf, tokOf_injective⟩

def u₀ : UU :=
  (initOf (Pipeline.cells cfgs cellOf_inj) (Pipeline.launchToks cfgs cellOf_inj), initOf xchCells xchToks)

/-- The duty tokens of device `c`'s own cells. -/
def toks (c : Dev nD) : sProp 𝕄 :=
  iprop(dutyTok ER (barCell c) 0 () ∗ dutyTok ER (sendCell c) 0 () ∗ dutyTok ER (recvCell c) 0 ())

/-- What the launch element deals device `c`. -/
def G (c : Dev nD) : sProp 𝕄 :=
  iprop((bigSep Finset.univ fun k : Fin 3 => roundState ER (xchRd m) (kcell (c, k)) 0)
    ∗ (bigSep Finset.univ fun k : Fin 3 => iprop(atPos ER (kcell (c, k)) 0 ∅ 0 ∗ reached ER (kcell (c, k)) 0)) ∗ toks c)

/-- What the global step makes of it. -/
def G' (c : Dev nD) : sProp 𝕄 := iprop(∃ K, ghost m K c)

theorem bigSep_fin3 (Φ : Fin 3 → sProp 𝕄) : bigSep Finset.univ Φ = iprop(Φ 0 ∗ Φ 1 ∗ Φ 2) := bigSep_univ_eq_bigSepL [0, 1, 2] (by decide) (by decide) Φ

theorem fund_xch : BI.own (ER (initOf xchCells xchToks)) ⊢ (|==> bigSep Finset.univ (G m) : sProp 𝕄) := by
  have hX (Φ : GSem nD τ sig → sProp 𝕄) : bigSep xchCells Φ = bigSep Finset.univ fun c : Dev nD => bigSep Finset.univ fun k : Fin 3 => Φ (kcell (c, k)) := by
    unfold xchCells; rw [bigSep_map, bigSep_univ_prod]; rfl
  have hT : bigSep xchToks (fun x => (dutyTok ER x.1 x.2.1 x.2.2 : sProp 𝕄)) = bigSep Finset.univ fun c : Dev nD => toks c := by
    unfold xchToks; rw [bigSep_map, bigSep_univ_prod]
    exact bigSep_congr fun c _ => by unfold toks; rw [bigSep_fin3]; rfl
  iintro HX
  imod (Rounds.fund ER (xchRd m) xchCells xchToks) $$ HX with ⟨Hst, Hr, Hat, Htok⟩
  imodintro
  ihave Hst' := (Entails.of_eq (hX fun g => roundState ER (xchRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The send and receive semaphores are the kernel's own two; -/
theorem ownSems0_eq (c : Dev nD) : (Pipeline.ownSems0 (Ix := Unit) (Name := ℕ) (U := UU) (Lvl := ℕ) (Val := Elt F) (τ := τ) osem c : sProp 𝕄)
    = iprop(semVal (sendCell c) 0 ∗ semVal (recvCell c) 0) := by
  rw [Pipeline.ownSems0_eq_of_list c osem [0, 1] (by decide) (by decide)]; rfl
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 3 => semVal (kcell (c, k)) 0 : sProp 𝕄) := by
  rw [ownSems0_eq, unscopedSems0_eq, bigSep_fin3]
  iintro ⟨⟨HS, HV⟩, HB⟩
  isplitl [HB]; · iexact HB
  isplitl [HS] <;> iassumption

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (xchRd m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 3 => semVal (kcell (c, k)) 0) ∗ bigSep Finset.univ fun k : Fin 3 => roundState ER (xchRd m) (kcell (c, k)) 0)
      ⊢ (|={Set.univ}=> bigSep Finset.univ fun k => iprop(∃ κ : ℕ, cellInv ER (xchRd m) κ (kcell (c, k))) : sProp 𝕄) from by
        rw [← bigSep_sep']
        exact (bigSep_mono fun k _ => (Rounds.body_intro ER (xchRd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

def records (K : Dev nD × Fin 3 → ℕ) : sProp 𝕄 :=
  iprop((bigSep Finset.univ fun ck : Dev nD × Fin 3 => cellInv ER (xchRd m) (K ck) (kcell ck))
    ∗ bigSep Finset.univ fun ck : Dev nD × Fin 3 => reached ER (kcell ck) 0)

instance records_persistent (K : Dev nD × Fin 3 → ℕ) : BI.Persistent (records m K) := by unfold records; infer_instance

theorem inv_at (K : Dev nD × Fin 3 → ℕ) (ck : Dev nD × Fin 3) :
    (bigSep Finset.univ fun ck : Dev nD × Fin 3 => (cellInv ER (xchRd m) (K ck) (kcell ck) : sProp 𝕄)) ⊢ cellInv ER (xchRd m) (K ck) (kcell ck) :=
  bigSep_elim (Finset.mem_univ ck)
theorem reached_at (ck : Dev nD × Fin 3) :
    (bigSep Finset.univ fun ck : Dev nD × Fin 3 => (reached ER (kcell ck) 0 : sProp 𝕄)) ⊢ reached ER (kcell ck) 0 :=
  bigSep_elim (Finset.mem_univ ck)

/-- What stays with device `c`: its positions, and the tokens of the duties IT pays. -/
def payToks (c : Dev nD) : sProp 𝕄 :=
  iprop(dutyTok ER (barCell (peer c)) 0 () ∗ dutyTok ER (recvCell (peer c)) 0 () ∗ dutyTok ER (sendCell c) 0 ())
def linear (c : Dev nD) : sProp 𝕄 :=
  iprop((atPos ER (barCell c) 0 ∅ 0 ∗ atPos ER (sendCell c) 0 ∅ 0 ∗ atPos ER (recvCell c) 0 ∅ 0) ∗ payToks c)

theorem ghost_intro (K : Dev nD × Fin 3 → ℕ) (c : Dev nD) : iprop(records m K ∗ linear c) ⊢ G' m c := by
  unfold records linear payToks G' ghost invs
  iintro ⟨⟨#HI, #HR⟩, ⟨HaB, HaS, HaV⟩, HtBP, HtVP, HtS⟩
  iexists K
  isplitr
  · isplitr; · iapply (inv_at m K (c, 0)); iexact HI
    isplitr; · iapply (inv_at m K (c, 1)); iexact HI
    isplitr; · iapply (inv_at m K (c, 2)); iexact HI
    isplitr; · iapply (inv_at m K (peer c, 0)); iexact HI
    iapply (inv_at m K (peer c, 2)); iexact HI
  isplitl [HaB]; · iexact HaB
  isplitl [HaS]; · iexact HaS
  isplitl [HaV]; · iexact HaV
  isplitr; · iapply (reached_at (F := F) (peer c, 0)); iexact HR
  isplitr; · iapply (reached_at (F := F) (peer c, 2)); iexact HR
  isplitr; · iapply (reached_at (F := F) (c, 1)); iexact HR
  isplitr; · iapply (reached_at (F := F) (c, 2)); iexact HR
  isplitl [HtBP]; · iexact HtBP
  isplitl [HtVP]; · iexact HtVP
  iexact HtS

/-- The tokens dealt across: a barrier cell's and a receive cell's token go to the partner, who pays them. -/
theorem toks_across : (bigSep Finset.univ fun c : Dev nD => (toks c : sProp 𝕄)) ⊢ bigSep Finset.univ fun c : Dev nD => payToks c := by
  unfold toks payToks
  rw [bigSep_sep', bigSep_sep', bigSep_sep', bigSep_sep',
    bigSep_univ_equiv swap (fun c : Dev nD => (dutyTok ER (barCell c) 0 () : sProp 𝕄)),
    bigSep_univ_equiv swap (fun c : Dev nD => (dutyTok ER (recvCell c) 0 () : sProp 𝕄))]
  iintro ⟨H1, H2, H3⟩
  isplitl [H1]; · iexact H1
  isplitl [H3]; · iexact H3
  iexact H2

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (xchRd m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 3 => iprop(∃ κ : ℕ, cellInv ER (xchRd m) κ (kcell ck))),
    bigSep_congr (s := Finset.univ) (fun (c : Dev nD) _ => bigSep_sep' Finset.univ (fun k : Fin 3 => (atPos ER (kcell (c, k)) 0 ∅ 0 : sProp 𝕄)) (fun k => reached ER (kcell (c, k)) 0)),
    bigSep_sep', ← bigSep_univ_prod (fun ck : Dev nD × Fin 3 => (reached ER (kcell ck) 0 : sProp 𝕄))]
  iintro ⟨HI, ⟨Hat, #HR⟩, Htok⟩
  ihave HK := (BI.bigSep_exists_pi Finset.univ (fun (ck : Dev nD × Fin 3) (κ : ℕ) => (cellInv ER (xchRd m) κ (kcell ck) : sProp 𝕄))) $$ HI
  icases HK with ⟨%K, #HI⟩
  ihave Htk := (toks_across (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : Fin 3 => (atPos ER (kcell (c, k)) 0 ∅ 0 : sProp 𝕄)) payToks).symm).trans
      (bigSep_mono fun c _ => show _ ⊢ linear c from Entails.of_eq (by unfold linear; rw [bigSep_fin3])))
    isplitl [Hat]; · iexact Hat
    iexact Htk

/-- The global step: own AND unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ### The launch credit -/

theorem bar_eq_iff {a b : Dev nD} : Iff (barCell a = barCell b) (a = b) :=
  ⟨fun h => Fin.ext (congrArg (fun g : GSem nD τ sig => g.1.1.val) h), fun h => h ▸ rfl⟩
theorem recv_eq_iff {a b : Dev nD} : Iff (recvCell a = recvCell b) (a = b) :=
  ⟨fun h => Fin.ext (congrArg (fun g : GSem nD τ sig => g.1.1.val) h), fun h => h ▸ rfl⟩

/-- What device `d` owes device `c`'s barrier cell: one unit if `d` is `c`'s partner. -/
theorem owed_bar (d c : Dev nD) : O₀ d (barCell c) () = if d = peer c then 1 else 0 := by
  unfold O₀ O₁
  rw [Pi.add_apply, Finsupp.add_apply, tallyAt_ne_cell (fun h => recv_ne_bar (congrArg Prod.snd h).symm),
    tallyAt_apply, Finsupp.zero_apply, Nat.zero_add]
  by_cases h : d = peer c
  · subst h; rw [peer_peer, if_pos ⟨rfl, rfl⟩, if_pos rfl]
  · rw [if_neg (fun ⟨h1, _⟩ => h (by rw [← peer_peer d]; exact congrArg peer (bar_eq_iff.mp h1).symm)), if_neg h]

/-- What device `d` owes device `c`'s receive cell: the row's credit if `d` is `c`'s partner. -/
theorem owed_recv (d c : Dev nD) : O₀ d (recvCell c) () = if d = peer c then N else 0 := by
  unfold O₀ O₁
  rw [Pi.add_apply, Finsupp.add_apply, tallyAt_apply,
    tallyAt_ne_cell (fun h => recv_ne_bar (congrArg Prod.snd h)), Finsupp.zero_apply, Nat.add_zero]
  by_cases h : d = peer c
  · subst h; rw [peer_peer, if_pos ⟨rfl, rfl⟩, if_pos rfl]
  · rw [if_neg (fun ⟨h1, _⟩ => h (by rw [← peer_peer d]; exact congrArg peer (recv_eq_iff.mp h1).symm)), if_neg h]

theorem launch_bar (c : Dev nD) :
    tallyOn (barCell c) (launchCredit (Pipeline.owing O₀) 0 (barCell c)) = (tallyAt (barCell c) () 1 : CellTallies nD τ sig Unit) := by
  unfold tallyAt; refine congrArg _ (Finsupp.ext fun u => ?_); cases u
  rw [Pipeline.launchCredit_owing, Finsupp.single_eq_same, Finset.sum_congr rfl fun d _ => owed_bar d c,
    Finset.sum_ite_eq' Finset.univ (peer c) fun _ => 1, if_pos (Finset.mem_univ _)]

theorem launch_recv (c : Dev nD) :
    tallyOn (recvCell c) (launchCredit (Pipeline.owing O₀) 0 (recvCell c)) = (tallyAt (recvCell c) () N : CellTallies nD τ sig Unit) := by
  unfold tallyAt; refine congrArg _ (Finsupp.ext fun u => ?_); cases u
  rw [Pipeline.launchCredit_owing, Finsupp.single_eq_same, Finset.sum_congr rfl fun d _ => owed_recv d c, Finset.sum_ite_eq' Finset.univ (peer c) fun _ => N,
    if_pos (Finset.mem_univ _)]

theorem creds (c : Dev nD) :
    (Pipeline.launchCred O₀ c : sProp 𝕄) ⊢ iprop(cred (tallyAt (barCell c) () 1) ∗ cred (tallyAt (recvCell c) () N)) := by
  unfold Pipeline.launchCred
  rw [bigSep_univ_at _ (SemLoc.reg barS), launch_bar]
  refine sep_mono_right ?_
  rw [← launch_recv]
  exact bigSep_elim (Finset.mem_erase.mpr ⟨recv_ne_bar, Finset.mem_univ _⟩)

/-! ### The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, ⟨%fs, Hsb⟩, ⟨%fr, Hrb⟩⟩
  isplitl [Hs]; · iexact Hs
  isplitl [Hsb]
  · iexists fs; rw [sPts_eq]; iexact Hsb
  · iexists fr; rw [rPts_eq]; iexact Hrb

theorem phi1_exit (c : Dev nD) :
    (dats m 0 c).Φ (Fin.last cfg0.N) ⊢ iprop(emp ∗ Pipeline.ownSems0 osem c ∗ Pipeline.scopedRest cfg0.spec c) := by
  rw [show (dats m 0 c).Φ (Fin.last cfg0.N) = Φ₁ m c from rfl, scopedRest0_eq, ownSems0_eq]
  unfold Φ₁
  iintro ⟨Hsb, Hrb, HzS, HzV⟩
  isplitr; · iempintro
  isplitl [HzS HzV]
  · isplitl [HzS] <;> iassumption
  isplitl [Hsb]
  · iexists (sendVal m c); rw [← sPts_eq]; iexact Hsb
  · iexists (landed m c); rw [← rPts_eq]; iexact Hrb

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ### The run -/

def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

set_option maxRecDepth 16384 in
/-- At the compiled mesh of four devices, for any float values, from any memory with zero counters: every weakly fair
    execution of @main — the two pairs of partners handshaking on the barrier semaphore, then exchanging their rows —
    terminates, and every final state has each window's array at the contents the proof data compute. -/
theorem run_main : θ_run defs (onTc (τ := τ) (main (F := F))) ⟨m, fun _ => 0, ρ⟩ (QC m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_xch m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun _ h c w => (h c).1 w)

/-- info: 'Cert.KernelProof.run_main' depends on axioms: [propext, Classical.choice, Quot.sound] -/
#guard_msgs in #print axioms run_main

end Cert.KernelProof

end
-- ==== Proof.FinalK.lean ====
/-
  What the two windowed arrays hold when the one-point pipeline has run.

  The region has one point. Window 0 is the input window over the device's block of `x`: an input array is never
  written back, so it holds at the end what it held at entry. Window 1 is the output window over the device's result
  row; it is written back at the one point, and its block there is the whole array at offset zero, so the array ends
  holding exactly what the body left in the staging buffer: the result row.
-/
import proofs.«900563_g7700000000000564_dist_max_ax0_xy_m1024_n512_v7x_xy2x2_f32_1_alg».proof.Proof.ProtocolK
import Idealize.ShloMosaic.Lib.Pipeline.Cells

noncomputable section

namespace Cert.KernelProof

open Cert.Kernel Cert.Kernel.Gen Cert.Exchange

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- The input array after the region: as at entry, since an input window is never written back. -/
theorem arr_x (c : Dev nD) : (dats m 0 c).arrAt (0 : Fin 2) cfg0.N = m ((c : Thread nD τ).loc main_arg0) :=
  (dats m 0 c).arrAt_in (0 : Fin 2) rfl _

/-- The output window is written back at the one point. -/
theorem flush_1 : (cfg0.win (1 : Fin 2)).flush t₀ = true := by decide

/-- The output array after the region: the result row. The one point writes the whole staging block over the whole
    array (the block's offsets are the block index, zero, times the sizes), which replaces its contents. -/
theorem arr_o (c : Dev nD) : (dats m 0 c).arrAt (1 : Fin 2) cfg0.N = outAt m c := by
  have h := (dats m 0 c).arrAt_succ (1 : Fin 2) t₀
  rw [flush_1, if_pos rfl] at h
  have hN : cfg0.N = t₀.val + 1 := cfg0_N
  refine (congrArg ((dats m 0 c).arrAt (1 : Fin 2)) hN).trans (h.trans ?_)
  exact Memref.write_access_unit_zero_univ (Elt F) main_v1 (off := fun a => win0_1.index t₀ a * win0_1.size a)
    (funext fun a => Nat.zero_mul _) _ _ _

/-- info: 'Cert.KernelProof.arr_o' depends on axioms: [propext, Classical.choice, Quot.sound] -/
#guard_msgs in #print axioms Cert.KernelProof.arr_o

end Cert.KernelProof

end
-- ==== Proof.RunK.lean ====
/-
  The run of the whole mesh with its result NAMED: every device's result row ends as the elementwise maximum of
  the column maxima of its own block of `x` and of its partner's block, and its block of `x` ends unchanged.
-/
import proofs.«900563_g7700000000000564_dist_max_ax0_xy_m1024_n512_v7x_xy2x2_f32_1_alg».proof.Proof.LaunchK
import proofs.«900563_g7700000000000564_dist_max_ax0_xy_m1024_n512_v7x_xy2x2_f32_1_alg».proof.Proof.FinalK

noncomputable section

namespace Cert.KernelProof

open Cert.Kernel Cert.Kernel.Gen Cert.Exchange

open Idealize.ShloMosaic
open Idealize.ShloMosaic.TcCoe
open Idealize.SL Idealize.SL.Sem

variable {F : FTy → Type} [FloatOps F]

variable (m : (ℓ : Loc nD τ sig) → Buf (Elt F) ℓ) (ρ : Dev nD → PrngReg)

/-- The input window's one block is the whole array: what the staging buffer holds is the device's block of `x`. -/
theorem xstg_eq (c : Dev nD) : xstg m c = m ((c : Thread nD τ).loc main_arg0) := by
  unfold xstg
  exact Memref.read_access_unit_zero (Elt F) main_arg0 (funext fun a => Nat.zero_mul _) _ _

/-- The result row as a function of the two blocks of `x`. -/
theorem outAt_eq (c : Dev nD) :
    outAt m c = k0_pay1 (k0_pay3 (k0_pay2 (m ((c : Thread nD τ).loc main_arg0)))) (k0_pay2 (m ((peer c : Thread nD τ).loc main_arg0))) := by
  unfold outAt landed sendVal
  rw [xstg_eq, xstg_eq]

theorem run_named : θ_run defs (onTc (τ := τ) (main (F := F))) ⟨m, fun _ => 0, ρ⟩ (fun r => ∀ c : Dev nD,
    r.2.mem ((c.tc : Thread nD τ).loc main_v1) = outAt m c
    ∧ r.2.mem ((c.tc : Thread nD τ).loc main_arg0) = m ((c.tc : Thread nD τ).loc main_arg0)) :=
  (θ_run defs _ _).mono (fun r h c => ⟨(h c (1 : Fin 2)).trans (arr_o m c), (h c (0 : Fin 2)).trans (arr_x m c)⟩) (run_main m ρ)

/-- info: 'Cert.KernelProof.run_named' depends on axioms: [propext, Classical.choice, Quot.sound] -/
#guard_msgs in #print axioms run_named

end Cert.KernelProof

end
-- ==== Proof.Value.lean ====
import proofs.«900563_g7700000000000564_dist_max_ax0_xy_m1024_n512_v7x_xy2x2_f32_1_alg».proof.Defs
import proofs.«900563_g7700000000000564_dist_max_ax0_xy_m1024_n512_v7x_xy2x2_f32_1_alg».proof.Proof.Gen.KernelIdeal.Skeleton
import proofs.«900563_g7700000000000564_dist_max_ax0_xy_m1024_n512_v7x_xy2x2_f32_1_alg».proof.Proof.Gen.ReferenceIdeal.Run
import proofs.«900563_g7700000000000564_dist_max_ax0_xy_m1024_n512_v7x_xy2x2_f32_1_alg».proof.Proof.Gen.ReferenceIdeal.Read
import proofs.«900563_g7700000000000564_dist_max_ax0_xy_m1024_n512_v7x_xy2x2_f32_1_alg».proof.Proof.Peer
import Idealize.ShloMosaic.Lib.Layout
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.Reduce
import Mathlib.Order.CompleteLattice.Finset
import Mathlib.Data.EReal.Basic

/-
  The value of the exchange, at the ideal instance.

  Four devices form a 2 × 2 mesh, device `c` at (row `c / 2`, column `c % 2`). The whole array `X` has 2048 rows and
  1024 columns; device `c` holds the block of rows `1024 · (c / 2) + r` and columns `512 · (c % 2) + l`. Each device takes
  the column-wise maximum of its block from minus infinity, and combines it by `max` with the same row of its partner,
  the device in the same mesh column and the other mesh row. The reference takes the column-wise maximum of the whole array.

  Floats here are extended reals, the bit pattern of minus infinity is the least element `⊥`, and a fold of `max` from `⊥`
  over a finite index set is the supremum. The supremum over the 2048 rows is the larger of the suprema over the two
  halves of 1024 rows, in either order, since `max` commutes: so the device's row is its block of columns of the
  reference's row. No finiteness of the entries is used.
-/

noncomputable section

namespace Cert.Bridge

open Idealize.ShloMosaic Idealize.ShloMosaic.ValueIdx Cert.Exchange

/-- What a device's result row holds, as a function of its own block `xc` and its partner's block `xp`. -/
def outVal {F : FTy → Type} [FloatOps F] (xc xp : Vec F Cert.KernelIdeal.S1024x512 .f32) : FVec F Cert.KernelIdeal.S1x512 .f32 :=
  Cert.KernelIdeal.Gen.k0_pay1 (Cert.KernelIdeal.Gen.k0_pay3 (Cert.KernelIdeal.Gen.k0_pay2 xc)) (Cert.KernelIdeal.Gen.k0_pay2 xp)

/-! ## Order facts on the extended reals -/

/-- The bit pattern of minus infinity denotes the least extended real. -/
theorem ofBits_negInf : Ideal.ofBits .f32 0xFF800000#32 = (⊥ : EReal) := by simp [Ideal.ofBits, Ideal.ieee]

/-- A fold of `max` from the least element is the supremum. -/
theorem fold_max_bot {ι : Type} (s : Finset ι) (f : ι → EReal) : s.fold max (⊥ : EReal) f = s.sup f := rfl

/-- The supremum over 2048 rows is the larger of the suprema over the two halves of 1024 rows, `g` reading the half
    numbered `a` and `h` the half numbered `b`, whichever of the two is the lower half. -/
theorem sup_rows_split (f : Fin 2048 → EReal) (g h : Fin 1024 → EReal) (a b : ℕ)
    (hab : (a = 0 ∧ b = 1) ∨ (a = 1 ∧ b = 0))
    (hg : ∀ (r : Fin 1024) (q : Fin 2048), q.val = a * 1024 + r.val → g r = f q)
    (hh : ∀ (r : Fin 1024) (q : Fin 2048), q.val = b * 1024 + r.val → h r = f q) :
    max (Finset.univ.sup g) (Finset.univ.sup h) = Finset.univ.sup f := by
  apply le_antisymm
  · -- each half's supremum is below the whole's: every row of a half is a row of the whole
    apply max_le
    · refine Finset.sup_le fun r _ => ?_
      have hq : a * 1024 + r.val < 2048 := by rcases hab with ⟨rfl, rfl⟩ | ⟨rfl, rfl⟩ <;> omega
      rw [hg r ⟨_, hq⟩ rfl]
      exact Finset.le_sup (f := f) (Finset.mem_univ _)
    · refine Finset.sup_le fun r _ => ?_
      have hq : b * 1024 + r.val < 2048 := by rcases hab with ⟨rfl, rfl⟩ | ⟨rfl, rfl⟩ <;> omega
      rw [hh r ⟨_, hq⟩ rfl]
      exact Finset.le_sup (f := f) (Finset.mem_univ _)
  · -- every row `q` of the whole lies in the half numbered `q / 1024`
    refine Finset.sup_le fun q _ => ?_
    have hq2 := q.isLt
    by_cases hq : q.val / 1024 = a
    · have hr : q.val - a * 1024 < 1024 := by omega
      rw [← hg ⟨_, hr⟩ q (by show q.val = a * 1024 + (q.val - a * 1024); omega)]
      exact le_max_of_le_left (Finset.le_sup (f := g) (Finset.mem_univ _))
    · have hqb : q.val / 1024 = b := by rcases hab with ⟨rfl, rfl⟩ | ⟨rfl, rfl⟩ <;> omega
      have hr : q.val - b * 1024 < 1024 := by omega
      rw [← hh ⟨_, hr⟩ q (by show q.val = b * 1024 + (q.val - b * 1024); omega)]
      exact le_max_of_le_right (Finset.le_sup (f := h) (Finset.mem_univ _))

/-! ## The device's row at a column -/

/-- The index of a 1024 × 512 block over column `l` with row coordinate `r` inserted is `(r, l)`. -/
theorem lift_rows (h : Shape.Reduces Cert.KernelIdeal.S1024x512 [0] Cert.KernelIdeal.S512) (l : Fin 512) (r : Fin 1024) :
    h.lift (ix1 l) r = ix2 r l := by
  funext a
  match a with
  | ⟨0, _⟩ => exact Fin.ext rfl
  | ⟨1, _⟩ => exact Fin.ext rfl

/-- The column-wise maximum of a block from minus infinity, kept as a one-row array: at column `l` the supremum of the
    block's column `l`. -/
theorem pay2_apply (x : Vec Ideal Cert.KernelIdeal.S1024x512 .f32) (u : Fin 1) (l : Fin 512) :
    Cert.KernelIdeal.Gen.k0_pay2 (F := Ideal) x (ix2 u l) = Finset.univ.sup fun r : Fin 1024 => x (ix2 r l) := by
  unfold Cert.KernelIdeal.Gen.k0_pay2
  refine (shapeCast_a_1a_apply _ _ u l).trans ?_
  refine (Ideal.multiReduction_maximumf_single _ _ _ _ _ (ix1 l)).trans ?_
  rw [shapeCast_self]
  have hf : (x ∘ Cert.KernelIdeal.Gen.reduces_S1024x512_S512.lift (ix1 l)) = fun r : Fin 1024 => x (ix2 r l) :=
    funext fun r => congrArg x (lift_rows _ l r)
  have hb : (FloatOps.ofBits (F := Ideal) FTy.f32 0xFF800000#32) = (⊥ : EReal) := ofBits_negInf
  rw [hb]
  exact (congrArg (fun f => Finset.fold max (⊥ : EReal) f Finset.univ) hf).trans (fold_max_bot _ _)

/-- A device's result row at a column: the larger of the two blocks' column suprema. -/
theorem outVal_apply (xc xp : Vec Ideal Cert.KernelIdeal.S1024x512 .f32) (u : Fin 1) (l : Fin 512) :
    outVal (F := Ideal) xc xp (ix2 u l)
      = max (Finset.univ.sup fun r : Fin 1024 => xc (ix2 r l)) (Finset.univ.sup fun r : Fin 1024 => xp (ix2 r l)) := by
  unfold outVal Cert.KernelIdeal.Gen.k0_pay1 Cert.KernelIdeal.Gen.k0_pay3
  refine (shapeCast_a_1a_apply _ _ u l).trans ?_
  refine (maximumf_apply _ _ (ix1 l)).trans ?_
  rw [shapeCast_1a_a_apply, shapeCast_1a_a_apply, pay2_apply, pay2_apply]

/-! ## The reference's row at a column -/

/-- The index of the 2048 × 1024 array over column `j` with row coordinate `q` inserted is `(q, j)`. -/
theorem lift_rows_ref (h : Shape.Reduces Cert.ReferenceIdeal.S2048x1024 [0] Cert.ReferenceIdeal.S1024) (j : Fin 1024) (q : Fin 2048) :
    h.lift (ix1 j) q = ix2 q j := by
  funext a
  match a with
  | ⟨0, _⟩ => exact Fin.ext rfl
  | ⟨1, _⟩ => exact Fin.ext rfl

/-- Dropping the row axis of the 2048 × 1024 shape leaves the 1024 columns. -/
theorem reduces_ref : Shape.Reduces Cert.ReferenceIdeal.S2048x1024 [0] Cert.ReferenceIdeal.S1024 := by decide

/-- The reference's row at column `j` is the supremum of column `j` of the whole array. -/
theorem ref_apply (X : (⟨Cert.ReferenceIdeal.S2048x1024, .f32⟩ : BufTy).Contents (Elt Ideal)) (u : Fin 1) (j : Fin 1024) :
    Cert.ReferenceIdeal.Read.val_main_v1 (F := Ideal) X (ix2 u j) = Finset.univ.sup fun q : Fin 2048 => X (ix2 q j) := by
  rw [Cert.ReferenceIdeal.Read.val_main_v1_apply]
  have hi : Cert.ReferenceIdeal.Read.idx_main_v1 (ix2 u j) = ix1 j := by
    funext a; match a with | ⟨0, _⟩ => rfl
  rw [hi]
  unfold Cert.ReferenceIdeal.Read.val_main_v0
  refine (Host.reduce_eq_fold_single (FloatOps.maximumf (F := Ideal) (φ := .f32)) X _ _ reduces_ref _ (ix1 j)).trans ?_
  have hf : (X ∘ reduces_ref.lift (ix1 j)) = fun q : Fin 2048 => X (ix2 q j) :=
    funext fun q => congrArg X (lift_rows_ref _ j q)
  have hb : Cert.ReferenceIdeal.Read.val_main_cst (F := Ideal) (Shape.Idx.first Cert.ReferenceIdeal.Gen.h_S_) = (⊥ : EReal) :=
    ofBits_negInf
  rw [hb]
  exact (congrArg (fun f => Finset.fold max (⊥ : EReal) f Finset.univ) hf).trans (fold_max_bot _ _)

/-! ## Blocks at an index -/

/-- Device `c`'s block coordinates of an array cut by rows along the first mesh axis and by columns along the second:
    (`c / 2`, `c % 2`). -/
theorem mesh_in : ∀ c : Fin 4,
    ((Layout.meshBlock [2, 2] ![[0], [1]] c) 0).val = c.val / 2 ∧ ((Layout.meshBlock [2, 2] ![[0], [1]] c) 1).val = c.val % 2 := by
  decide

/-- Device `c`'s block coordinates of a one-row array cut by columns along the second mesh axis only: (0, `c % 2`). -/
theorem mesh_out : ∀ c : Fin 4,
    ((Layout.meshBlock [2, 2] ![[], [1]] c) 0).val = 0 ∧ ((Layout.meshBlock [2, 2] ![[], [1]] c) 1).val = c.val % 2 := by
  decide

/-- Device `c`'s block of the whole array at `(r, l)` is the whole array at row `1024 · (c / 2) + r`, column
    `512 · (c % 2) + l`. -/
theorem block_in_apply (X : (⟨Cert.ReferenceIdeal.S2048x1024, .f32⟩ : BufTy).Contents (Elt Ideal)) (c : Fin 4)
    (r : Fin 1024) (l : Fin 512) (q : Fin 2048) (j : Fin 1024)
    (hq : q.val = c.val / 2 * 1024 + r.val) (hj : j.val = c.val % 2 * 512 + l.val) :
    (Layout.blockN ⟨2, ![1024, 512]⟩ ⟨2, ![2048, 1024]⟩ (Layout.meshBlock [2, 2] ![[0], [1]] c) X) (ix2 r l) = X (ix2 q j) := by
  rw [Layout.blockN_apply]
  congr 1
  funext a
  apply Fin.ext
  match a with
  | ⟨0, _⟩ =>
    show ((Layout.meshBlock [2, 2] ![[0], [1]] c) 0).val * 1024 + r.val = q.val
    rw [(mesh_in c).1, hq]
  | ⟨1, _⟩ =>
    show ((Layout.meshBlock [2, 2] ![[0], [1]] c) 1).val * 512 + l.val = j.val
    rw [(mesh_in c).2, hj]

/-- Device `c`'s block of a one-row array of 1024 columns at `(u, l)` is the row at column `512 · (c % 2) + l`. -/
theorem block_out_apply (V : (⟨Cert.ReferenceIdeal.S1x1024, .f32⟩ : BufTy).Contents (Elt Ideal)) (c : Fin 4)
    (u : Fin 1) (l : Fin 512) (j : Fin 1024) (hj : j.val = c.val % 2 * 512 + l.val) :
    (Layout.blockN ⟨2, ![1, 512]⟩ ⟨2, ![1, 1024]⟩ (Layout.meshBlock [2, 2] ![[], [1]] c) V) (ix2 u l) = V (ix2 u j) := by
  rw [Layout.blockN_apply]
  congr 1
  funext a
  apply Fin.ext
  match a with
  | ⟨0, _⟩ =>
    show ((Layout.meshBlock [2, 2] ![[], [1]] c) 0).val * 1 + u.val = u.val
    rw [(mesh_out c).1]; omega
  | ⟨1, _⟩ =>
    show ((Layout.meshBlock [2, 2] ![[], [1]] c) 1).val * 512 + l.val = j.val
    rw [(mesh_out c).2, hj]

/-! ## The bridge -/

/-- The row a device ends with, computed from its own block and its partner's block of the whole array `X`, is its
    block of columns of the reference's row of column-wise maxima of `X`: at column `l` both are the supremum of
    column `512 · (c % 2) + l` of `X`, the device's as the larger of the suprema over the rows of the two mesh rows. -/
theorem outVal_eq_block (X : (⟨Cert.ReferenceIdeal.S2048x1024, .f32⟩ : BufTy).Contents (Elt Ideal)) (c : Fin 4) :
    outVal (F := Ideal)
      (Layout.blockN ⟨2, ![1024, 512]⟩ ⟨2, ![2048, 1024]⟩ (Layout.meshBlock [2, 2] ![[0], [1]] c) X)
      (Layout.blockN ⟨2, ![1024, 512]⟩ ⟨2, ![2048, 1024]⟩ (Layout.meshBlock [2, 2] ![[0], [1]] (peer c)) X)
    = Layout.blockN ⟨2, ![1, 512]⟩ ⟨2, ![1, 1024]⟩ (Layout.meshBlock [2, 2] ![[], [1]] c)
        (Cert.ReferenceIdeal.Read.val_main_v1 (F := Ideal) X) := by
  funext i
  obtain ⟨u, l, rfl⟩ : ∃ (u : Fin 1) (l : Fin 512), i = ix2 u l := ⟨i 0, i 1, eq_ix2 i⟩
  have hc := c.isLt
  have hj : c.val % 2 * 512 + l.val < 1024 := by omega
  rw [outVal_apply, block_out_apply _ c u l ⟨_, hj⟩ rfl, ref_apply]
  refine sup_rows_split _ _ _ (c.val / 2) ((peer c).val / 2) ?_ ?_ ?_
  · have := peer_row c; omega
  · intro r q hq
    exact block_in_apply X c r l q ⟨_, hj⟩ hq rfl
  · intro r q hq
    exact block_in_apply X (peer c) r l q ⟨_, hj⟩ hq (by show _ = (peer c).val % 2 * 512 + l.val; rw [peer_col])

/-- info: 'Cert.Bridge.outVal_eq_block' depends on axioms: [propext, Classical.choice, Quot.sound] -/
#guard_msgs in #print axioms Cert.Bridge.outVal_eq_block

end Cert.Bridge

end
-- ==== Proof.lean ====
/-
  The certificate of the column maximum of a [2048, 1024] array computed on a 2 × 2 mesh of devices.

  Each device holds a [1024, 512] block of `x` (row half by its mesh row, column half by its mesh column),
  reduces it to the row of its 512 column maxima, exchanges that row with the device in the same column
  and the other row, and keeps the elementwise maximum: the maxima over all 2048 rows of its 512 columns.
  The reference reduces the whole array along its rows and keeps the result as a [1, 1024] row; device
  `c`'s result is its column half of that row. Over the extended reals a maximum over 2048 rows is the
  maximum of the maxima over the two halves of 1024 rows, in either order, with -∞ the unit: no
  finiteness is used, and the precondition is never opened.

  The three frames: both kernel programs by the run of the whole mesh with the result dropped (the same
  text read at the word level and at the extended reals); the reference by its run. The idealization
  rewrote nothing, so it preserves trivially.
-/
import proofs.«900563_g7700000000000564_dist_max_ax0_xy_m1024_n512_v7x_xy2x2_f32_1_alg».proof.Defs
import proofs.«900563_g7700000000000564_dist_max_ax0_xy_m1024_n512_v7x_xy2x2_f32_1_alg».proof.Proof.Gen.Kernel
import proofs.«900563_g7700000000000564_dist_max_ax0_xy_m1024_n512_v7x_xy2x2_f32_1_alg».proof.Proof.Gen.KernelIdeal
import proofs.«900563_g7700000000000564_dist_max_ax0_xy_m1024_n512_v7x_xy2x2_f32_1_alg».proof.Proof.Gen.ReferenceIdeal
import proofs.«900563_g7700000000000564_dist_max_ax0_xy_m1024_n512_v7x_xy2x2_f32_1_alg».proof.Proof.Gen.Pre_finite_inputs_Kernel
import proofs.«900563_g7700000000000564_dist_max_ax0_xy_m1024_n512_v7x_xy2x2_f32_1_alg».proof.Proof.Gen.Pre_finite_inputs_ReferenceIdeal
import proofs.«900563_g7700000000000564_dist_max_ax0_xy_m1024_n512_v7x_xy2x2_f32_1_alg».proof.Proof.Gen.ReferenceIdeal.Run
import proofs.«900563_g7700000000000564_dist_max_ax0_xy_m1024_n512_v7x_xy2x2_f32_1_alg».proof.Proof.Gen.ReferenceIdeal.Read
import proofs.«900563_g7700000000000564_dist_max_ax0_xy_m1024_n512_v7x_xy2x2_f32_1_alg».proof.Proof.Run
import proofs.«900563_g7700000000000564_dist_max_ax0_xy_m1024_n512_v7x_xy2x2_f32_1_alg».proof.Proof.RunK
import proofs.«900563_g7700000000000564_dist_max_ax0_xy_m1024_n512_v7x_xy2x2_f32_1_alg».proof.Proof.Value

noncomputable section

namespace Cert.Proof

open Idealize.ShloMosaic Idealize.ShloMosaic.TcCoe Idealize.SL.Sem Cert.Exchange

theorem frame_k : Cert.frame_Kernel := fun m ρ _ =>
  (θ_run (Cert.Kernel.defs (F := Bits)) _ _).mono (fun _ h c => (h c).2) (Cert.KernelProof.run_named (F := Bits) m ρ)

theorem frame_ki : Cert.frame_KernelIdeal := fun m ρ _ =>
  (θ_run (Cert.KernelIdeal.defs (F := Ideal)) _ _).mono (fun _ h c => (h c).2) (Cert.KernelIdealProof.run_named (F := Ideal) m ρ)

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Device `c`'s result row, the maximum of its own column maxima and its partner's, is its column half of the
    reference's row of column maxima over all rows: the two blocks are the two row halves of its column half. -/
theorem algebraic : Cert.algebraic_KernelIdeal_ReferenceIdeal := by
  intro m ρ m' ρ' _ hagree
  refine ⟨Cert.ReferenceIdeal.Read.val_main_v1 (F := Ideal) (m' (((0 : Dev Cert.ReferenceIdeal.nD).tc : Thread Cert.ReferenceIdeal.nD Cert.ReferenceIdeal.τ).loc Cert.ReferenceIdeal.main_arg0)), ?_, ?_⟩
  · refine (θ_run (Cert.KernelIdeal.defs (F := Ideal)) _ _).mono (fun r h c => ⟨(h c).1.trans ?_, (h c).2⟩)
      (Cert.KernelIdealProof.run_named (F := Ideal) m ρ)
    rw [Cert.KernelIdealProof.outAt_eq, hagree c, hagree (peer c)]
    exact Cert.Bridge.outVal_eq_block _ c
  · exact (θ_run Cert.ReferenceIdeal.defs _ _).mono (fun r h => ⟨(h 0).1.trans (Cert.ReferenceIdeal.Read.val_main_v1_eq _), (h 0).2⟩)
      (Cert.ReferenceIdeal.Value.run (F := Ideal) m' ρ')

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  frame_k, frame_ki, frame_ri, preserves, algebraic⟩

end Cert.Proof

end
